-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S110x4096 : Shape := ⟨2, ![110, 4096]⟩
abbrev S110x110 : Shape := ⟨2, ![110, 110]⟩
abbrev S4096x4096 : Shape := ⟨2, ![4096, 4096]⟩
abbrev S4096 : Shape := ⟨1, ![4096]⟩
abbrev S8192x4096 : Shape := ⟨2, ![8192, 4096]⟩
abbrev S110 : Shape := ⟨1, ![110]⟩
abbrev S_ : Shape := ⟨0, ![]⟩

class Facts : Prop where
  bcast_S_S110x4096 : S_.BroadcastsInDim S110x4096 (![] : Fin 0 → Fin S110x4096.rank)
  reducesTo_S110x4096_S_d0_1 : S110x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S8192x4096 : S_.BroadcastsInDim S8192x4096 (![] : Fin 0 → Fin S8192x4096.rank)
  reducesTo_S8192x4096_S_d0_1 : S8192x4096.ReducesTo [0, 1] S_
  bcast_S_S110x110 : S_.BroadcastsInDim S110x110 (![] : Fin 0 → Fin S110x110.rank)
  reducesTo_S110x110_S_d0_1 : S110x110.ReducesTo [0, 1] S_
  bcast_S_S110 : S_.BroadcastsInDim S110 (![] : Fin 0 → Fin S110.rank)
  reducesTo_S110_S_d0 : S110.ReducesTo [0] S_

variable [Facts]

def fn_part1 {F : FTy → Type} [FloatOps F] (main_arg5 : FVec F S4096 .f32) (main_arg6 : FVec F S110x110 .f32) (main_arg7 : FVec F S110 .f32) (main_v13 : IVec S_ 1) (main_v16 : IVec S8192x4096 1) : IVec S_ 1 :=
  let main_c_5 : IVec S_ 1 := constantI S_ 1 1#1
  let main_v17 : IVec S_ 1 := (fun x v => Host.reduce IntOp.andi x v reducesTo_S8192x4096_S_d0_1 h_S_) main_v16 main_c_5
  let main_v18 : IVec S_ 1 := andi main_v13 main_v17
  let main_v19 : FVec F S4096 .f32 := Host.absf main_arg5
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S110x110 .f32 := Host.absf main_arg6
  let main_cst_8 : FVec F S_ .f32 := constant S_ .f32 0x7F800000#32
  let main_v25 : FVec F S110x110 .f32 := broadcastInDim S110x110 ![] bcast_S_S110x110 main_cst_8
  let main_v26 : IVec S110x110 1 := cmpf .olt main_v24 main_v25
  let main_c_9 : IVec S_ 1 := constantI S_ 1 1#1
  let main_v27 : IVec S_ 1 := (fun x v => Host.reduce IntOp.andi x v reducesTo_S110x110_S_d0_1 h_S_) main_v26 main_c_9
  let main_v28 : IVec S_ 1 := andi main_v23 main_v27
  let main_v29 : FVec F S110 .f32 := Host.absf main_arg7
  let main_cst_10 : FVec F S_ .f32 := constant S_ .f32 0x7F800000#32
  let main_v30 : FVec F S110 .f32 := broadcastInDim S110 ![] bcast_S_S110 main_cst_10
  let main_v31 : IVec S110 1 := cmpf .olt main_v29 main_v30
  let main_c_11 : IVec S_ 1 := constantI S_ 1 1#1
  let main_v32 : IVec S_ 1 := (fun x v => Host.reduce IntOp.andi x v reducesTo_S110_S_d0 h_S_) main_v31 main_c_11
  let main_v33 : IVec S_ 1 := andi main_v28 main_v32
  main_v33

def fn {F : FTy → Type} [FloatOps F] (main_arg0 : FVec F S110x4096 .f32) (main_arg1 : IVec S110x110 32) (main_arg2 : FVec F S4096x4096 .f32) (main_arg3 : FVec F S4096 .f32) (main_arg4 : FVec F S8192x4096 .f32) (main_arg5 : FVec F S4096 .f32) (main_arg6 : FVec F S110x110 .f32) (main_arg7 : FVec F S110 .f32) : IVec S_ 1 :=
  let main_v0 : FVec F S110x4096 .f32 := Host.absf main_arg0
  let main_cst : FVec F S_ .f32 := constant S_ .f32 0x7F800000#32
  let main_v1 : FVec F S110x4096 .f32 := broadcastInDim S110x4096 ![] bcast_S_S110x4096 main_cst
  let main_v2 : IVec S110x4096 1 := cmpf .olt main_v0 main_v1
  let main_c : IVec S_ 1 := constantI S_ 1 1#1
  let main_v3 : IVec S_ 1 := (fun x v => Host.reduce IntOp.andi x v reducesTo_S110x4096_S_d0_1 h_S_) main_v2 main_c
  let main_v4 : FVec F S4096x4096 .f32 := Host.absf main_arg2
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S8192x4096 .f32 := Host.absf main_arg4
  let main_cst_4 : FVec F S_ .f32 := constant S_ .f32 0x7F800000#32
  let main_v15 : FVec F S8192x4096 .f32 := broadcastInDim S8192x4096 ![] bcast_S_S8192x4096 main_cst_4
  let main_v16 : IVec S8192x4096 1 := cmpf .olt main_v14 main_v15
  fn_part1 (F := F) main_arg5 main_arg6 main_arg7 main_v13 main_v16
-- ==== Kernel.lean ====
abbrev S110x4096 : Shape := ⟨2, ![110, 4096]⟩
abbrev S110x110 : Shape := ⟨2, ![110, 110]⟩
abbrev S4096x4096 : Shape := ⟨2, ![4096, 4096]⟩
abbrev S4096 : Shape := ⟨1, ![4096]⟩
abbrev S8192x4096 : Shape := ⟨2, ![8192, 4096]⟩
abbrev S110 : Shape := ⟨1, ![110]⟩
abbrev S_ : Shape := ⟨0, ![]⟩
abbrev S110x1 : Shape := ⟨2, ![110, 1]⟩
abbrev S1x4096 : Shape := ⟨2, ![1, 4096]⟩
abbrev S4096x512 : Shape := ⟨2, ![4096, 512]⟩
abbrev S1x512 : Shape := ⟨2, ![1, 512]⟩
abbrev S110x512 : Shape := ⟨2, ![110, 512]⟩
abbrev S8192x256 : Shape := ⟨2, ![8192, 256]⟩
abbrev S1x256 : Shape := ⟨2, ![1, 256]⟩
abbrev S110x256 : Shape := ⟨2, ![110, 256]⟩
abbrev S4096x256 : Shape := ⟨2, ![4096, 256]⟩

abbrev nBuf : Space → Nat
  | .hbm => 28
  | .vmem => 20
  | .smem => 0
  | _ => 0

abbrev bufTy : (tb : Table) → Fin (tcTables nBuf tb) → BufTy
  | .hbm, ⟨0, _⟩ => ⟨S110x4096, .f32⟩
  | .hbm, ⟨1, _⟩ => ⟨S110x110, .i32⟩
  | .hbm, ⟨2, _⟩ => ⟨S4096x4096, .f32⟩
  | .hbm, ⟨3, _⟩ => ⟨S4096, .f32⟩
  | .hbm, ⟨4, _⟩ => ⟨S8192x4096, .f32⟩
  | .hbm, ⟨5, _⟩ => ⟨S4096, .f32⟩
  | .hbm, ⟨6, _⟩ => ⟨S110x110, .f32⟩
  | .hbm, ⟨7, _⟩ => ⟨S110, .f32⟩
  | .hbm, ⟨8, _⟩ => ⟨S_, .i32⟩
  | .hbm, ⟨9, _⟩ => ⟨S110x110, .i32⟩
  | .hbm, ⟨10, _⟩ => ⟨S110x110, .i1⟩
  | .hbm, ⟨11, _⟩ => ⟨S110x110, .f32⟩
  | .hbm, ⟨12, _⟩ => ⟨S_, .f32⟩
  | .hbm, ⟨13, _⟩ => ⟨S110, .f32⟩
  | .hbm, ⟨14, _⟩ => ⟨S110x110, .f32⟩
  | .hbm, ⟨15, _⟩ => ⟨S_, .f32⟩
  | .hbm, ⟨16, _⟩ => ⟨S110, .f32⟩
  | .hbm, ⟨17, _⟩ => ⟨S110, .f32⟩
  | .hbm, ⟨18, _⟩ => ⟨S110x1, .f32⟩
  | .hbm, ⟨19, _⟩ => ⟨S110x110, .f32⟩
  | .hbm, ⟨20, _⟩ => ⟨S110x110, .f32⟩
  | .hbm, ⟨21, _⟩ => ⟨S110x4096, .bf16⟩
  | .hbm, ⟨22, _⟩ => ⟨S1x4096, .f32⟩
  | .hbm, ⟨23, _⟩ => ⟨S110x4096, .bf16⟩
  | .hbm, ⟨24, _⟩ => ⟨S110x4096, .bf16⟩
  | .hbm, ⟨25, _⟩ => ⟨S1x4096, .f32⟩
  | .hbm, ⟨26, _⟩ => ⟨S110x1, .f32⟩
  | .hbm, ⟨27, _⟩ => ⟨S110x4096, .f32⟩
  | .local _ .vmem, ⟨0, _⟩ => ⟨S110x4096, .bf16⟩
  | .local _ .vmem, ⟨1, _⟩ => ⟨S4096x512, .f32⟩
  | .local _ .vmem, ⟨2, _⟩ => ⟨S4096x512, .f32⟩
  | .local _ .vmem, ⟨3, _⟩ => ⟨S1x512, .f32⟩
  | .local _ .vmem, ⟨4, _⟩ => ⟨S1x512, .f32⟩
  | .local _ .vmem, ⟨5, _⟩ => ⟨S110x110, .f32⟩
  | .local _ .vmem, ⟨6, _⟩ => ⟨S110x512, .bf16⟩
  | .local _ .vmem, ⟨7, _⟩ => ⟨S110x512, .bf16⟩
  | .local _ .vmem, ⟨8, _⟩ => ⟨S110x512, .bf16⟩
  | .local _ .vmem, ⟨9, _⟩ => ⟨S110x512, .bf16⟩
  | .local _ .vmem, ⟨10, _⟩ => ⟨S110x4096, .bf16⟩
  | .local _ .vmem, ⟨11, _⟩ => ⟨S110x4096, .bf16⟩
  | .local _ .vmem, ⟨12, _⟩ => ⟨S8192x256, .f32⟩
  | .local _ .vmem, ⟨13, _⟩ => ⟨S8192x256, .f32⟩
  | .local _ .vmem, ⟨14, _⟩ => ⟨S1x256, .f32⟩
  | .local _ .vmem, ⟨15, _⟩ => ⟨S1x256, .f32⟩
  | .local _ .vmem, ⟨16, _⟩ => ⟨S110x110, .f32⟩
  | .local _ .vmem, ⟨17, _⟩ => ⟨S110x1, .f32⟩
  | .local _ .vmem, ⟨18, _⟩ => ⟨S110x256, .f32⟩
  | .local _ .vmem, ⟨19, _⟩ => ⟨S110x256, .f32⟩
  | _, _ => ⟨S110x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S110x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S110x110 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S110x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S110x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S110x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S110x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8192x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S110x110 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S110x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S110x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S110x110 : S_.BroadcastsInDim S110x110 (![] : Fin 0 → Fin S110x110.rank)
  reducesTo_S110x110_S110_d0 : S110x110.ReducesTo [0] S110
  h_S_ : 0 < S_.numel
  transposes_S110x110_S110x110_1_0 : S110x110.Transposes [1, 0] S110x110
  bcast_S_S110 : S_.BroadcastsInDim S110 (![] : Fin 0 → Fin S110.rank)
  bcast_S110_S110x1_0 : S110.BroadcastsInDim S110x1 (![0] : Fin 1 → Fin S110x1.rank)
  bcast_S110x1_S110x110_0_1 : S110x1.BroadcastsInDim S110x110 (![0, 1] : Fin 2 → Fin S110x110.rank)
  bitsLt_bf16_f32 : FTy.bits .bf16 < FTy.bits .f32
  shapeCasts_S4096_S1x4096 : S4096.ShapeCasts S1x4096
  inb_S110x4096_S110x4096_0_0 : ∀ a, (![0, 0] : Fin 2 → Nat) a + S110x4096.size a ≤ S110x4096.size a
  h_S110x4096 : 0 < S110x4096.numel
  shapeCasts_S110x4096_S110x4096 : S110x4096.ShapeCasts S110x4096
  inb_S4096x512_S4096x512_0_0 : ∀ a, (![0, 0] : Fin 2 → Nat) a + S4096x512.size a ≤ S4096x512.size a
  h_S4096x512 : 0 < S4096x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S110x512 : S1x512.Broadcasts S110x512
  inb_S110x512_S110x512_0_0 : ∀ a, (![0, 0] : Fin 2 → Nat) a + S110x512.size a ≤ S110x512.size a
  h_S110x512 : 0 < S110x512.numel
  packedbf16_S110x512_S110x512_0_0 : (Rect.unit (s := S110x512) ![0, 0] S110x512.size inb_S110x512_S110x512_0_0).PackedRows (EltTy.packing .bf16)
  inb_S110x110_S110x110_0_0 : ∀ a, (![0, 0] : Fin 2 → Nat) a + S110x110.size a ≤ S110x110.size a
  h_S110x110 : 0 < S110x110.numel
  shapeCasts_S110x110_S110x110 : S110x110.ShapeCasts S110x110
  shapeCasts_S110_S110x1 : S110.ShapeCasts S110x1
  inb_S8192x256_S4096x256_0_0 : ∀ a, (![0, 0] : Fin 2 → Nat) a + S4096x256.size a ≤ S8192x256.size a
  h_S4096x256 : 0 < S4096x256.numel
  inb_S8192x256_S4096x256_4096_0 : ∀ a, (![4096, 0] : Fin 2 → Nat) a + S4096x256.size a ≤ S8192x256.size a
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S110x256 : S1x256.Broadcasts S110x256
  inb_S110x1_S110x1_0_0 : ∀ a, (![0, 0] : Fin 2 → Nat) a + S110x1.size a ≤ S110x1.size a
  h_S110x1 : 0 < S110x1.numel
  shapeCasts_S110x1_S110x1 : S110x1.ShapeCasts S110x1
  broadcasts_S110x1_S110x256 : S110x1.Broadcasts S110x256
  inb_S110x256_S110x256_0_0 : ∀ a, (![0, 0] : Fin 2 → Nat) a + S110x256.size a ≤ S110x256.size a
  h_S110x256 : 0 < S110x256.numel
  dot_S110x4096_S4096x512_S110x512_1_0_0_1_n_n_wf : DotDims.WF S110x4096 S4096x512 S110x512 [1] [0] [0] [1] [] []
  dot_S110x110_S110x512_S110x512_1_0_0_1_n_n_wf : DotDims.WF S110x110 S110x512 S110x512 [1] [0] [0] [1] [] []
  dot_S110x4096_S4096x256_S110x256_1_0_0_1_n_n_wf : DotDims.WF S110x4096 S4096x256 S110x256 [1] [0] [0] [1] [] []
  dot_S110x110_S110x256_S110x256_1_0_0_1_n_n_wf : DotDims.WF S110x110 S110x256 S110x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S110x4096.size a ≤ S110x4096.size a
  hwx0_0 : ∀ i : grid0.Coords, EltTy.bits .bf16 = 32 ∨ (Rect.block (s := S110x4096) S110x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x4096.size a
  hwx0_1 : ∀ i : grid0.Coords, EltTy.bits .f32 = 32 ∨ (Rect.block (s := S4096x4096) S4096x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S110x110.size a ≤ S110x110.size a
  hwx0_3 : ∀ i : grid0.Coords, EltTy.bits .f32 = 32 ∨ (Rect.block (s := S110x110) S110x110.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S110x512.size a ≤ S110x4096.size a
  hwx0_4 : ∀ i : grid0.Coords, EltTy.bits .bf16 = 32 ∨ (Rect.block (s := S110x4096) S110x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S110x512.size a ≤ S110x4096.size a
  hwx0_5 : ∀ i : grid0.Coords, EltTy.bits .bf16 = 32 ∨ (Rect.block (s := S110x4096) S110x512.size (cc0_transform_5 i) (hinb0_5 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S110x4096.size a ≤ S110x4096.size a
  hwx1_0 : ∀ i : grid1.Coords, EltTy.bits .bf16 = 32 ∨ (Rect.block (s := S110x4096) S110x4096.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S110x4096.size a ≤ S110x4096.size a
  hwx1_1 : ∀ i : grid1.Coords, EltTy.bits .bf16 = 32 ∨ (Rect.block (s := S110x4096) S110x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x256.size a ≤ S8192x4096.size a
  hwx1_2 : ∀ i : grid1.Coords, EltTy.bits .f32 = 32 ∨ (Rect.block (s := S8192x4096) S8192x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x4096.size a
  hwx1_3 : ∀ i : grid1.Coords, EltTy.bits .f32 = 32 ∨ (Rect.block (s := S1x4096) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S110x110.size a ≤ S110x110.size a
  hwx1_4 : ∀ i : grid1.Coords, EltTy.bits .f32 = 32 ∨ (Rect.block (s := S110x110) S110x110.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S110x1.size a ≤ S110x1.size a
  hwx1_5 : ∀ i : grid1.Coords, EltTy.bits .f32 = 32 ∨ (Rect.block (s := S110x1) S110x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S110x256.size a ≤ S110x4096.size a
  hwx1_6 : ∀ i : grid1.Coords, EltTy.bits .f32 = 32 ∨ (Rect.block (s := S110x4096) S110x256.size (cc1_transform_6 i) (hinb1_6 i)).WholeWords (EltTy.packing .f32)

variable [Facts₀]

def dot_S110x4096_S4096x512_S110x512_1_0_0_1_n_n : DotDims S110x4096 S4096x512 S110x512 where
  lhsContracting := [1]
  rhsContracting := [0]
  lhsNonContracting := [0]
  rhsNonContracting := [1]
  lhsBatch := []
  rhsBatch := []
  wf := dot_S110x4096_S4096x512_S110x512_1_0_0_1_n_n_wf
def dot_S110x110_S110x512_S110x512_1_0_0_1_n_n : DotDims S110x110 S110x512 S110x512 where
  lhsContracting := [1]
  rhsContracting := [0]
  lhsNonContracting := [0]
  rhsNonContracting := [1]
  lhsBatch := []
  rhsBatch := []
  wf := dot_S110x110_S110x512_S110x512_1_0_0_1_n_n_wf
def dot_S110x4096_S4096x256_S110x256_1_0_0_1_n_n : DotDims S110x4096 S4096x256 S110x256 where
  lhsContracting := [1]
  rhsContracting := [0]
  lhsNonContracting := [0]
  rhsNonContracting := [1]
  lhsBatch := []
  rhsBatch := []
  wf := dot_S110x4096_S4096x256_S110x256_1_0_0_1_n_n_wf
def dot_S110x110_S110x256_S110x256_1_0_0_1_n_n : DotDims S110x110 S110x256 S110x256 where
  lhsContracting := [1]
  rhsContracting := [0]
  lhsNonContracting := [0]
  rhsNonContracting := [1]
  lhsBatch := []
  rhsBatch := []
  wf := dot_S110x110_S110x256_S110x256_1_0_0_1_n_n_wf

abbrev win0_0 : Pipeline.Window sig grid0 :=
  Pipeline.Window.ofSpec (Memref.whole main_v10) S110x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S110x110.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12_0) S110x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v12_1) S110x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v12_0) S110x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v12_1) S110x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S8192x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S110x110.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S110x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15) S110x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S110x4096 : Shape := ⟨2, ![110, 4096]⟩
abbrev S110x110 : Shape := ⟨2, ![110, 110]⟩
abbrev S4096x4096 : Shape := ⟨2, ![4096, 4096]⟩
abbrev S4096 : Shape := ⟨1, ![4096]⟩
abbrev S8192x4096 : Shape := ⟨2, ![8192, 4096]⟩
abbrev S110 : Shape := ⟨1, ![110]⟩
abbrev S1x4096 : Shape := ⟨2, ![1, 4096]⟩
abbrev S_ : Shape := ⟨0, ![]⟩
abbrev S110x1 : Shape := ⟨2, ![110, 1]⟩
abbrev S110x8192 : Shape := ⟨2, ![110, 8192]⟩
abbrev S4096x110 : Shape := ⟨2, ![4096, 110]⟩
abbrev S1x110 : Shape := ⟨2, ![1, 110]⟩

abbrev nBuf : Space → Nat
  | .hbm => 41
  | .vmem => 0
  | .smem => 0
  | _ => 0

abbrev bufTy : (tb : Table) → Fin (tcTables nBuf tb) → BufTy
  | .hbm, ⟨0, _⟩ => ⟨S110x4096, .f32⟩
  | .hbm, ⟨1, _⟩ => ⟨S110x110, .i32⟩
  | .hbm, ⟨2, _⟩ => ⟨S4096x4096, .f32⟩
  | .hbm, ⟨3, _⟩ => ⟨S4096, .f32⟩
  | .hbm, ⟨4, _⟩ => ⟨S8192x4096, .f32⟩
  | .hbm, ⟨5, _⟩ => ⟨S4096, .f32⟩
  | .hbm, ⟨6, _⟩ => ⟨S110x110, .f32⟩
  | .hbm, ⟨7, _⟩ => ⟨S110, .f32⟩
  | .hbm, ⟨8, _⟩ => ⟨S110x4096, .f32⟩
  | .hbm, ⟨9, _⟩ => ⟨S1x4096, .f32⟩
  | .hbm, ⟨10, _⟩ => ⟨S110x4096, .f32⟩
  | .hbm, ⟨11, _⟩ => ⟨S110x4096, .f32⟩
  | .hbm, ⟨12, _⟩ => ⟨S_, .i32⟩
  | .hbm, ⟨13, _⟩ => ⟨S110x110, .i32⟩
  | .hbm, ⟨14, _⟩ => ⟨S110x110, .i1⟩
  | .hbm, ⟨15, _⟩ => ⟨S110x110, .f32⟩
  | .hbm, ⟨16, _⟩ => ⟨S_, .f32⟩
  | .hbm, ⟨17, _⟩ => ⟨S110, .f32⟩
  | .hbm, ⟨18, _⟩ => ⟨S110x110, .f32⟩
  | .hbm, ⟨19, _⟩ => ⟨S110x4096, .f32⟩
  | .hbm, ⟨20, _⟩ => ⟨S_, .f32⟩
  | .hbm, ⟨21, _⟩ => ⟨S110, .f32⟩
  | .hbm, ⟨22, _⟩ => ⟨S110, .f32⟩
  | .hbm, ⟨23, _⟩ => ⟨S110x1, .f32⟩
  | .hbm, ⟨24, _⟩ => ⟨S110x4096, .f32⟩
  | .hbm, ⟨25, _⟩ => ⟨S110x4096, .f32⟩
  | .hbm, ⟨26, _⟩ => ⟨S110x8192, .f32⟩
  | .hbm, ⟨27, _⟩ => ⟨S110x4096, .f32⟩
  | .hbm, ⟨28, _⟩ => ⟨S1x4096, .f32⟩
  | .hbm, ⟨29, _⟩ => ⟨S110x4096, .f32⟩
  | .hbm, ⟨30, _⟩ => ⟨S110x4096, .f32⟩
  | .hbm, ⟨31, _⟩ => ⟨S_, .f32⟩
  | .hbm, ⟨32, _⟩ => ⟨S110x4096, .f32⟩
  | .hbm, ⟨33, _⟩ => ⟨S110x4096, .f32⟩
  | .hbm, ⟨34, _⟩ => ⟨S4096x110, .f32⟩
  | .hbm, ⟨35, _⟩ => ⟨S110x110, .f32⟩
  | .hbm, ⟨36, _⟩ => ⟨S4096x110, .f32⟩
  | .hbm, ⟨37, _⟩ => ⟨S1x110, .f32⟩
  | .hbm, ⟨38, _⟩ => ⟨S4096x110, .f32⟩
  | .hbm, ⟨39, _⟩ => ⟨S4096x110, .f32⟩
  | .hbm, ⟨40, _⟩ => ⟨S110x4096, .f32⟩
  | _, _ => ⟨S110x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_cst : Ref sig .tc := ⟨.hbm, 31, rfl⟩
abbrev main_call0_v0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S110x4096_0_1 : S1x4096.BroadcastsInDim S110x4096 (![0, 1] : Fin 2 → Fin S110x4096.rank)
  bcast_S_S110x110 : S_.BroadcastsInDim S110x110 (![] : Fin 0 → Fin S110x110.rank)
  reducesTo_S110x110_S110_d0 : S110x110.ReducesTo [0] S110
  h_S_ : 0 < S_.numel
  transposes_S110x110_S110x110_1_0 : S110x110.Transposes [1, 0] S110x110
  bcast_S_S110 : S_.BroadcastsInDim S110 (![] : Fin 0 → Fin S110.rank)
  bcast_S110_S110x1_0 : S110.BroadcastsInDim S110x1 (![0] : Fin 1 → Fin S110x1.rank)
  bcast_S110x1_S110x4096_0_1 : S110x1.BroadcastsInDim S110x4096 (![0, 1] : Fin 2 → Fin S110x4096.rank)
  concatenates_S110x4096_S110x4096_S110x8192_d1 : Shape.Concatenates [S110x4096, S110x4096] S110x8192 1
  bcast_S_S110x4096 : S_.BroadcastsInDim S110x4096 (![] : Fin 0 → Fin S110x4096.rank)
  transposes_S110x4096_S4096x110_1_0 : S110x4096.Transposes [1, 0] S4096x110
  bcast_S110_S1x110_1 : S110.BroadcastsInDim S1x110 (![1] : Fin 1 → Fin S1x110.rank)
  bcast_S1x110_S4096x110_0_1 : S1x110.BroadcastsInDim S4096x110 (![0, 1] : Fin 2 → Fin S4096x110.rank)
  transposes_S4096x110_S110x4096_1_0 : S4096x110.Transposes [1, 0] S110x4096
  dot_S110x4096_S4096x4096_S110x4096_1_0_0_1_n_n_wf : DotDims.WF S110x4096 S4096x4096 S110x4096 [1] [0] [0] [1] [] []
  dot_S110x110_S110x4096_S110x4096_1_0_0_1_n_n_wf : DotDims.WF S110x110 S110x4096 S110x4096 [1] [0] [0] [1] [] []
  dot_S110x8192_S8192x4096_S110x4096_1_0_0_1_n_n_wf : DotDims.WF S110x8192 S8192x4096 S110x4096 [1] [0] [0] [1] [] []
  dot_S4096x110_S110x110_S4096x110_1_0_0_1_n_n_wf : DotDims.WF S4096x110 S110x110 S4096x110 [1] [0] [0] [1] [] []

variable [Facts₀]

def dot_S110x4096_S4096x4096_S110x4096_1_0_0_1_n_n : DotDims S110x4096 S4096x4096 S110x4096 where
  lhsContracting := [1]
  rhsContracting := [0]
  lhsNonContracting := [0]
  rhsNonContracting := [1]
  lhsBatch := []
  rhsBatch := []
  wf := dot_S110x4096_S4096x4096_S110x4096_1_0_0_1_n_n_wf
def dot_S110x110_S110x4096_S110x4096_1_0_0_1_n_n : DotDims S110x110 S110x4096 S110x4096 where
  lhsContracting := [1]
  rhsContracting := [0]
  lhsNonContracting := [0]
  rhsNonContracting := [1]
  lhsBatch := []
  rhsBatch := []
  wf := dot_S110x110_S110x4096_S110x4096_1_0_0_1_n_n_wf
def dot_S110x8192_S8192x4096_S110x4096_1_0_0_1_n_n : DotDims S110x8192 S8192x4096 S110x4096 where
  lhsContracting := [1]
  rhsContracting := [0]
  lhsNonContracting := [0]
  rhsNonContracting := [1]
  lhsBatch := []
  rhsBatch := []
  wf := dot_S110x8192_S8192x4096_S110x4096_1_0_0_1_n_n_wf
def dot_S4096x110_S110x110_S4096x110_1_0_0_1_n_n : DotDims S4096x110 S110x110 S4096x110 where
  lhsContracting := [1]
  rhsContracting := [0]
  lhsNonContracting := [0]
  rhsNonContracting := [1]
  lhsBatch := []
  rhsBatch := []
  wf := dot_S4096x110_S110x110_S4096x110_1_0_0_1_n_n_wf

class Facts : Prop extends Facts₀ where

variable [Facts]
-- ==== Proof.Spec.lean ====
/-
  The graph layer as plain sums on the extended reals, written twice: once in the order the two kernels compute it
  (normalise the adjacency weights, then aggregate; contract the two halves of the second weight matrix apart; weights on
  the left of the last product) and once in the order the reference does (aggregate, then divide by the clamped degree;
  contract the joined matrix over all 8192 rows; weights on the right). Three laws join them:
    * dividing every weight of a row by a positive real d and then summing against h is summing first and dividing
      once, because multiplication by the non-negative real 1/d distributes over every sum of extended reals;
    * a sum over 8192 rows is the sum over the first 4096 plus the sum over the last 4096;
    * products commute.
  None of them needs the summands to be finite.
-/
import Idealize.ShloMosaic.PureOps.Ideal
import Idealize.ShloMosaic.PureOps.Ideal.Laws
import Mathlib.Algebra.BigOperators.Fin

noncomputable section

open scoped BigOperators

namespace Cert.Spec

open Idealize.ShloMosaic

/-- The word of zero bits (the floor of the rectifier), left as its pattern. -/
abbrev z : EReal := Ideal.ofBits .f32 0x00000000#32

/-- The word of one (the floor of the degree), left as its pattern. -/
abbrev one : EReal := Ideal.ofBits .f32 0x3F800000#32

/-- The hidden features: x · W₂ + b₂, entry (n, c). -/
def hid (x : Fin 110 → Fin 4096 → EReal) (w2 : Fin 4096 → Fin 4096 → EReal) (b2 : Fin 4096 → EReal)
    (n : Fin 110) (c : Fin 4096) : EReal :=
  (∑ k : Fin 4096, x n k * w2 k c) + b2 c

/-- Aggregation with weights already normalised: entry (j, c) is ∑ᵢ mn(j,i) · h(i,c). -/
def aggK (mn : Fin 110 → Fin 110 → EReal) (h : Fin 110 → Fin 4096 → EReal) (j : Fin 110) (c : Fin 4096) : EReal :=
  ∑ i : Fin 110, mn j i * h i c

/-- Aggregation, then one division by the row's clamped degree. -/
def aggR (a : Fin 110 → Fin 110 → EReal) (d : Fin 110 → EReal) (h : Fin 110 → Fin 4096 → EReal)
    (j : Fin 110) (c : Fin 4096) : EReal :=
  Ideal.div (∑ i : Fin 110, a j i * h i c) (d j)

/-- Row k of the upper half of an 8192-row matrix. -/
def lo (k : Fin 4096) : Fin 8192 := ⟨k.val, by have := k.isLt; omega⟩
/-- Row k of its lower half. -/
def hi (k : Fin 4096) : Fin 8192 := ⟨4096 + k.val, by have := k.isLt; omega⟩

/-- The second layer before the rectifier, the two halves of W₁ contracted apart. -/
def preK (h ag : Fin 110 → Fin 4096 → EReal) (w1 : Fin 8192 → Fin 4096 → EReal) (b1 : Fin 4096 → EReal)
    (n : Fin 110) (c : Fin 4096) : EReal :=
  ((∑ k : Fin 4096, h n k * w1 (lo k) c) + (∑ k : Fin 4096, ag n k * w1 (hi k) c)) + b1 c

/-- Hidden features and aggregate side by side: column k of [h | ag]. -/
def cat (h ag : Fin 110 → Fin 4096 → EReal) (n : Fin 110) (k : Fin 8192) : EReal :=
  if hk : k.val < 4096 then h n ⟨k.val, hk⟩ else ag n ⟨k.val - 4096, by have := k.isLt; omega⟩

/-- The second layer before the rectifier, [h | ag] contracted against all of W₁. -/
def preR (h ag : Fin 110 → Fin 4096 → EReal) (w1 : Fin 8192 → Fin 4096 → EReal) (b1 : Fin 4096 → EReal)
    (n : Fin 110) (c : Fin 4096) : EReal :=
  (∑ k : Fin 8192, cat h ag n k * w1 k c) + b1 c

/-- The node mixing, weights on the left: ∑ₖ Wl(n,k) · max(pre(k,c), 0) + bl(n). -/
def outK (pre : Fin 110 → Fin 4096 → EReal) (wl : Fin 110 → Fin 110 → EReal) (bl : Fin 110 → EReal)
    (n : Fin 110) (c : Fin 4096) : EReal :=
  (∑ k : Fin 110, wl n k * max (pre k c) z) + bl n

/-- The node mixing, weights on the right. -/
def outR (pre : Fin 110 → Fin 4096 → EReal) (wl : Fin 110 → Fin 110 → EReal) (bl : Fin 110 → EReal)
    (n : Fin 110) (c : Fin 4096) : EReal :=
  (∑ k : Fin 110, max (pre k c) z * wl n k) + bl n

/-! ## The laws -/

/-- A finite sum of reals, cast, is the sum of the casts. -/
theorem coe_sum {ι : Type} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- Multiplication by a non-negative finite extended real distributes over a finite sum. -/
theorem mul_sum_of_nonneg {ι : Type} (t : EReal) (ht : 0 ≤ t) (ht' : t ≠ ⊤) (s : Finset ι) (f : ι → EReal) :
    t * ∑ i ∈ s, f i = ∑ i ∈ s, t * f i := by
  classical
  induction s using Finset.induction_on with
  | empty => simp
  | insert a s ha ih =>
    rw [Finset.sum_insert ha, Finset.sum_insert ha, EReal.left_distrib_of_nonneg_of_ne_top ht ht', ih]

/-- The pattern of one is the real one. -/
theorem one_eq : one = ((1 : ℝ) : EReal) := by
  show Ideal.ofBits .f32 0x3F800000#32 = _
  simp [Ideal.ofBits, Ideal.ieee, -EReal.coe_mul]; norm_num

/-- A count of reals started at zero and clamped below by one is a positive real. -/
theorem clamp_pos (f : Fin 110 → ℝ) :
    ∃ r : ℝ, 0 < r ∧ max (z + ∑ k : Fin 110, ((f k : ℝ) : EReal)) one = (r : EReal) := by
  refine ⟨max (∑ k : Fin 110, f k) 1, lt_max_of_lt_right one_pos, ?_⟩
  rw [coe_sum, show z = 0 from Ideal.ofBits_zero_f32, zero_add, one_eq]
  exact (EReal.coe_strictMono.monotone.map_max).symm

/-- Normalising the weights of row j by a positive real before aggregating is dividing the aggregate once. -/
theorem aggK_eq_aggR (mn a : Fin 110 → Fin 110 → EReal) (d : Fin 110 → EReal) (h : Fin 110 → Fin 4096 → EReal)
    (hmn : ∀ j i, mn j i = Ideal.div (a j i) (d j)) (hd : ∀ j, ∃ r : ℝ, 0 < r ∧ d j = (r : EReal))
    (j : Fin 110) (c : Fin 4096) : aggK mn h j c = aggR a d h j c := by
  obtain ⟨r, hr, hdj⟩ := hd j
  unfold aggK aggR
  rw [hdj, Ideal.div_coe hr.ne']
  have ht : (0 : EReal) ≤ ((1 / r : ℝ) : EReal) := EReal.coe_nonneg.mpr (by positivity)
  have ht' : ((1 / r : ℝ) : EReal) ≠ ⊤ := EReal.coe_ne_top _
  rw [mul_comm, mul_sum_of_nonneg _ ht ht']
  refine Finset.sum_congr rfl fun i _ => ?_
  rw [hmn, hdj, Ideal.div_coe hr.ne', mul_comm (a j i), mul_assoc]

/-- Contracting [h | ag] against all of W₁ is contracting h against its upper half and ag against its lower half. -/
theorem preK_eq_preR (h ag : Fin 110 → Fin 4096 → EReal) (w1 : Fin 8192 → Fin 4096 → EReal) (b1 : Fin 4096 → EReal)
    (n : Fin 110) (c : Fin 4096) : preK h ag w1 b1 n c = preR h ag w1 b1 n c := by
  unfold preK preR
  refine congrArg (· + b1 c) ?_
  have e := Fin.sum_univ_add (M := EReal) (a := 4096) (b := 4096) (fun k : Fin (4096 + 4096) => cat h ag n k * w1 k c)
  refine Eq.trans ?_ e.symm
  refine congrArg₂ (· + ·) (Finset.sum_congr rfl fun k _ => ?_) (Finset.sum_congr rfl fun k _ => ?_)
  · show h n k * w1 (lo k) c = cat h ag n (lo k) * w1 (lo k) c
    unfold cat
    rw [dif_pos (show (lo k).val < 4096 from k.isLt)]
    rfl
  · show ag n k * w1 (hi k) c = cat h ag n (hi k) * w1 (hi k) c
    unfold cat
    rw [dif_neg (show ¬ (hi k).val < 4096 from by show ¬ 4096 + k.val < 4096; omega)]
    refine congrArg (fun q => ag n q * w1 (hi k) c) (Fin.ext ?_)
    show k.val = 4096 + k.val - 4096
    omega

/-- Products commute under the node mixing. -/
theorem outK_eq_outR (pre : Fin 110 → Fin 4096 → EReal) (wl : Fin 110 → Fin 110 → EReal) (bl : Fin 110 → EReal)
    (n : Fin 110) (c : Fin 4096) : outK pre wl bl n c = outR pre wl bl n c := by
  unfold outK outR
  exact congrArg (· + bl n) (Finset.sum_congr rfl fun k _ => mul_comm _ _)

/-- The whole layer: the kernels' order of operations and the reference's give one function. -/
theorem layer_eq (x : Fin 110 → Fin 4096 → EReal) (w2 : Fin 4096 → Fin 4096 → EReal) (b2 : Fin 4096 → EReal)
    (mn a : Fin 110 → Fin 110 → EReal) (d : Fin 110 → EReal)
    (w1 : Fin 8192 → Fin 4096 → EReal) (b1 : Fin 4096 → EReal) (wl : Fin 110 → Fin 110 → EReal) (bl : Fin 110 → EReal)
    (hmn : ∀ j i, mn j i = Ideal.div (a j i) (d j)) (hd : ∀ j, ∃ r : ℝ, 0 < r ∧ d j = (r : EReal)) :
    outK (preK (hid x w2 b2) (aggK mn (hid x w2 b2)) w1 b1) wl bl
      = outR (preR (hid x w2 b2) (aggR a d (hid x w2 b2)) w1 b1) wl bl := by
  have hag : aggK mn (hid x w2 b2) = aggR a d (hid x w2 b2) :=
    funext fun j => funext fun c => aggK_eq_aggR mn a d _ hmn hd j c
  rw [hag]
  funext n c
  rw [outK_eq_outR]
  unfold outR
  refine congrArg (· + bl n) (Finset.sum_congr rfl fun k _ => ?_)
  rw [preK_eq_preR]

end Cert.Spec

end
-- ==== Proof.RefValue.lean ====
/-
  The reference, read entry by entry: its result at (n, c) is the node mixing (weights on the right) of the rectified second
  layer, the second layer being [h | ag] contracted against all of W₁ plus b₁, ag the adjacency-weighted sum of h divided
  by the clamped in-degree, h = x · W₂ + b₂. The transposed adjacency indicator and the clamped degree are carried as the
  two stages that compute them, unopened; all that is used of the degree is that it is a positive real: a count of zeros
  and ones, started at zero, clamped below by one.
-/
import proofs.«164711_j38817914421721_2_alg».proof.Proof.Gen.ReferenceIdeal.Read
import proofs.«164711_j38817914421721_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx Cert.Spec

/-- Two rank-2 indices with the same coordinates are equal. -/
macro "idx2" : tactic => `(tactic| (funext a; match a with | ⟨0, _⟩ => rfl | ⟨1, _⟩ => rfl))
/-- Two rank-1 indices with the same coordinate are equal. -/
macro "idx1" : tactic => `(tactic| (funext a; match a with | ⟨0, _⟩ => rfl))

variable (x : (⟨S110x4096, .f32⟩ : BufTy).Contents (Elt Ideal)) (adj : (⟨S110x110, .i32⟩ : BufTy).Contents (Elt Ideal))
  (w2 : (⟨S4096x4096, .f32⟩ : BufTy).Contents (Elt Ideal)) (b2 : (⟨S4096, .f32⟩ : BufTy).Contents (Elt Ideal))
  (w1 : (⟨S8192x4096, .f32⟩ : BufTy).Contents (Elt Ideal)) (b1 : (⟨S4096, .f32⟩ : BufTy).Contents (Elt Ideal))
  (wl : (⟨S110x110, .f32⟩ : BufTy).Contents (Elt Ideal)) (bl : (⟨S110, .f32⟩ : BufTy).Contents (Elt Ideal))

/-- The transposed adjacency indicator, entry (j, i): one if node i points at node j. -/
abbrev maskT (j i : Fin 110) : EReal := val_main_v8 (F := Ideal) adj (ix2 j i)
/-- The in-degree of node j, clamped below by one. -/
abbrev degc (j : Fin 110) : EReal := val_main_v11 (F := Ideal) adj (ix1 j)

/-- The clamped degree is a positive real. -/
theorem degc_pos (j : Fin 110) : ∃ r : ℝ, 0 < r ∧ degc adj j = (r : EReal) := by
  show ∃ r : ℝ, 0 < r ∧ val_main_v11 (F := Ideal) adj (ix1 j) = (r : EReal)
  rw [val_main_v11_apply, val_main_v7_apply, val_main_v10_apply, val_main_cst_0_apply, val_main_cst_apply]
  simp only [val_main_v6_apply]
  exact clamp_pos (fun k => (((val_main_v5 (F := Ideal) adj (idx_main_v7 (ix1 j) k)).toNat : ℝ)))

/-- The hidden features at (n, c). -/
theorem hid_at (n : Fin 110) (c : Fin 4096) :
    val_main_v3 (F := Ideal) x w2 b2 (ix2 n c)
      = hid (fun n k => x (ix2 n k)) (fun k c => w2 (ix2 k c)) (fun c => b2 (ix1 c)) n c := by
  rw [val_main_v3_apply, val_main_v0_apply, val_main_v2_apply, val_main_v1_apply]
  unfold hid
  refine congrArg₂ (· + ·) (Finset.sum_congr rfl fun k _ => congrArg₂ (· * ·) (congrArg x ?_) (congrArg w2 ?_)) (congrArg b2 ?_)
  · idx2
  · idx2
  · idx1

/-- The aggregate at (j, c): the weighted sum of hidden features over the sources, divided by the clamped degree. -/
theorem agg_at (j : Fin 110) (c : Fin 4096) :
    val_main_v14 (F := Ideal) x adj w2 b2 (ix2 j c)
      = aggR (maskT adj) (degc adj) (fun n c => val_main_v3 (F := Ideal) x w2 b2 (ix2 n c)) j c := by
  rw [val_main_v14_apply, val_main_v9_apply, val_main_v13_apply, val_main_v12_apply]
  unfold aggR
  refine congrArg₂ Ideal.div (Finset.sum_congr rfl fun k _ => congrArg₂ (· * ·) (congrArg _ ?_) (congrArg _ ?_)) (congrArg _ ?_)
  · idx2
  · idx2
  · idx1

/-- The joined features [h | ag] at (n, k). -/
theorem cat_at (n : Fin 110) (k : Fin 8192) :
    val_main_v15 (F := Ideal) x adj w2 b2 (ix2 n k)
      = cat (fun n c => val_main_v3 (F := Ideal) x w2 b2 (ix2 n c))
          (fun n c => val_main_v14 (F := Ideal) x adj w2 b2 (ix2 n c)) n k := by
  unfold val_main_v15 cat
  generalize val_main_v3 (F := Ideal) x w2 b2 = y0
  generalize val_main_v14 (F := Ideal) x adj w2 b2 = y1
  by_cases hk : k.val < 4096
  · rw [dif_pos hk]
    exact concatenate_pair_apply_left _ y0 y1 _ (ix2 n k) rfl
      (ix2 n ⟨k.val, hk⟩) (fun b => by match b with | ⟨0, _⟩ => rfl | ⟨1, _⟩ => rfl)
  · rw [dif_neg hk]
    exact concatenate_pair_apply_right _ y0 y1 _ (ix2 n k) rfl rfl
      (ix2 n ⟨k.val - 4096, by have := k.isLt; omega⟩)
      (fun b hb => by match b, hb with | ⟨0, _⟩, _ => rfl | ⟨1, _⟩, hb => exact absurd rfl hb)
      (by show (k.val - 4096) + 4096 = k.val; omega)

/-- The second layer before the rectifier at (n, c). -/
theorem pre_at (n : Fin 110) (c : Fin 4096) :
    val_main_v19 (F := Ideal) x adj w2 b2 w1 b1 (ix2 n c)
      = preR (fun n c => val_main_v3 (F := Ideal) x w2 b2 (ix2 n c))
          (fun n c => val_main_v14 (F := Ideal) x adj w2 b2 (ix2 n c))
          (fun k c => w1 (ix2 k c)) (fun c => b1 (ix1 c)) n c := by
  rw [val_main_v19_apply, val_main_v16_apply, val_main_v18_apply, val_main_v17_apply]
  unfold preR
  refine congrArg₂ (· + ·) (Finset.sum_congr rfl fun k _ => ?_) (congrArg b1 ?_)
  · rw [show lidx_main_v16 (ix2 n c) k = ix2 n k from by idx2, cat_at]
    exact congrArg (fun q => _ * w1 q) (by idx2)
  · idx1

/-- The result at (n, c). -/
theorem out_at (n : Fin 110) (c : Fin 4096) :
    val_main_v27 (F := Ideal) x adj w2 b2 w1 b1 wl bl (ix2 n c)
      = outR (fun n c => val_main_v19 (F := Ideal) x adj w2 b2 w1 b1 (ix2 n c))
          (fun n k => wl (ix2 n k)) (fun n => bl (ix1 n)) n c := by
  rw [val_main_v27_apply, val_main_v26_apply, val_main_v23_apply, val_main_v25_apply, val_main_v24_apply]
  unfold outR
  refine congrArg₂ (· + ·) (Finset.sum_congr rfl fun k _ => ?_) (congrArg bl ?_)
  · rw [val_main_v21_apply, val_main_v20_apply, val_main_v22_apply, val_main_call0_v0_apply, val_main_call0_cst_apply]
    refine congrArg₂ (· * ·) (congrArg (fun q => max q z) (congrArg _ ?_)) (congrArg wl ?_)
    · idx2
    · idx2
  · idx1

/-- THE REFERENCE'S RESULT, as one function of the arguments. -/
theorem result_eq :
    val_main_v27 (F := Ideal) x adj w2 b2 w1 b1 wl bl
      = fun i => outR (preR (hid (fun n k => x (ix2 n k)) (fun k c => w2 (ix2 k c)) (fun c => b2 (ix1 c)))
            (aggR (maskT adj) (degc adj) (hid (fun n k => x (ix2 n k)) (fun k c => w2 (ix2 k c)) (fun c => b2 (ix1 c))))
            (fun k c => w1 (ix2 k c)) (fun c => b1 (ix1 c)))
          (fun n k => wl (ix2 n k)) (fun n => bl (ix1 n)) (i 0) (i 1) := by
  funext i
  obtain ⟨n, c, rfl⟩ : ∃ (n : Fin 110) (c : Fin 4096), i = ix2 n c := ⟨i 0, i 1, eq_ix2 i⟩
  rw [out_at]
  have hH : (fun n c => val_main_v3 (F := Ideal) x w2 b2 (ix2 n c))
      = hid (fun n k => x (ix2 n k)) (fun k c => w2 (ix2 k c)) (fun c => b2 (ix1 c)) :=
    funext fun n => funext fun c => hid_at x w2 b2 n c
  have hA : (fun n c => val_main_v14 (F := Ideal) x adj w2 b2 (ix2 n c))
      = aggR (maskT adj) (degc adj) (hid (fun n k => x (ix2 n k)) (fun k c => w2 (ix2 k c)) (fun c => b2 (ix1 c))) := by
    funext j c; rw [agg_at, hH]
  have hP : (fun n c => val_main_v19 (F := Ideal) x adj w2 b2 w1 b1 (ix2 n c))
      = preR (hid (fun n k => x (ix2 n k)) (fun k c => w2 (ix2 k c)) (fun c => b2 (ix1 c)))
          (aggR (maskT adj) (degc adj) (hid (fun n k => x (ix2 n k)) (fun k c => w2 (ix2 k c)) (fun c => b2 (ix1 c))))
          (fun k c => w1 (ix2 k c)) (fun c => b1 (ix1 c)) := by
    funext n c; rw [pre_at, hH, hA]
  rw [hP]

end Cert.ReferenceIdeal.RefValue

end
-- ==== Proof.LibPlainDot.lean ====
/-
  General facts about the shapes a row-wise dense layer meets, on the extended reals: a rows-by-columns matrix product
  read at one entry as a sum over the shared axis; a column broadcast across the columns; a bias vector laid along the
  rows.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.LibPlainDot

open Idealize.ShloMosaic Idealize.ShloMosaic.ValueIdx

/-- The contraction sum of an `M×K` by `K×N` product at entry `(p, j)` is `∑ₖ l(p,k)·r(k,j)`: the one contracted axis
    is re-indexed by its coordinate; the left operand is read at the entry's row and the right at its column (the four
    hypotheses say so of the dimension numbers, coordinate by coordinate). -/
theorem sum_plain {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (l : (⟨2, ![M, K]⟩ : Shape).Idx → EReal) (r : (⟨2, ![K, N]⟩ : Shape).Idx → EReal) (p : Fin M) (j : Fin N) :
    ∑ q : D.contr.Idx, l (D.lhsIdx (ix2 p j) q) * r (D.rhsIdx (ix2 p j) q) = ∑ k : Fin K, l (ix2 p k) * r (ix2 k j) := by
  rw [← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

/-- A matrix product accumulated into zeros, read at entry `(p, j)`. -/
theorem matmul_plain_apply {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision)
    (l : FVec Ideal ⟨2, ![M, K]⟩ .f32) (r : FVec Ideal ⟨2, ![K, N]⟩ .f32) (p : Fin M) (j : Fin N) :
    FloatOps.matmul D prec l r (constant (F := Ideal) ⟨2, ![M, N]⟩ .f32 0x00000000#32) (ix2 p j)
      = ∑ k : Fin K, l (ix2 p k) * r (ix2 k j) := by
  rw [Ideal.matmul_constant_zero_apply]
  exact sum_plain D hr hs hl0 hl1 hr0 hr1 l r p j

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A bias vector `[b]` viewed as one row `[1, b]` and laid along `a` rows reads, at `(p, c)`, its entry `c`. -/
theorem bias_row_apply {a b : ℕ} (x : (⟨1, ![b]⟩ : Shape).Idx → α)
    (h : (⟨1, ![b]⟩ : Shape).ShapeCasts ⟨2, ![1, b]⟩) (h' : (⟨2, ![1, b]⟩ : Shape).Broadcasts ⟨2, ![a, b]⟩)
    (p : Fin a) (c : Fin b) :
    broadcastTo ⟨2, ![a, b]⟩ (shapeCast ⟨2, ![1, b]⟩ x h) h' (ix2 p c) = x (ix1 c) := by
  rw [broadcastTo_1b_ab_apply, shapeCast_a_1a_apply]

/-- The word of all zero bits is the real number zero. -/
theorem scalar_zero : (Scalar.ofBits (F := Ideal) .f32 0x00000000#32 : Ideal .f32) = (0 : EReal) :=
  Ideal.ofBits_zero_f32

end Cert.LibPlainDot

end
-- ==== Proof.KernelPay.lean ====
/-
  What each kernel body stores, entry by entry, as plain sums of its loaded blocks (on the extended reals, where a change of
  float format is the identity and a matrix product into zeros is the contraction sum):
    * the first kernel's hidden block at (p, q): ∑ₖ x(p,k) · w(k,q) + b(0,q);
    * its aggregate block at (p, q): ∑ᵢ mn(p,i) · hidden(i,q);
    * the second kernel's block at (p, q): ∑ₖ wl(p,k) · max(pre(k,q), 0) + bl(p,0), with
      pre(k,q) = ∑ⱼ h(k,j) · wtop(j,q) + ∑ⱼ ag(k,j) · wbot(j,q) + b1(0,q).
-/
import proofs.«164711_j38817914421721_2_alg».proof.Proof.Gen.KernelIdeal.Skeleton
import proofs.«164711_j38817914421721_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx Cert.LibPlainDot

/-! The product `S110x4096` by `S4096x512`: the left operand is read at the entry's row and the contracted coordinate, the right at the
    contracted coordinate and the entry's column. -/
theorem dA_l0 (i : S110x512.Idx) (q : dot_S110x4096_S4096x512_S110x512_1_0_0_1_n_n.contr.Idx) :
    (dot_S110x4096_S4096x512_S110x512_1_0_0_1_n_n.lhsIdx i q 0).val = (i 0).val := by
  unfold DotDims.lhsIdx
  rw [dif_neg (show ¬(0 : Fin S110x4096.rank) ∈ dot_S110x4096_S4096x512_S110x512_1_0_0_1_n_n.lhsBatch by decide), dif_pos (show (0 : Fin S110x4096.rank) ∈ dot_S110x4096_S4096x512_S110x512_1_0_0_1_n_n.lhsNonContracting by decide)]
  rfl
theorem dA_l1 (i : S110x512.Idx) (q : dot_S110x4096_S4096x512_S110x512_1_0_0_1_n_n.contr.Idx) :
    (dot_S110x4096_S4096x512_S110x512_1_0_0_1_n_n.lhsIdx i q 1).val = (q ⟨0, by decide⟩).val :=
  dot_S110x4096_S4096x512_S110x512_1_0_0_1_n_n.lhsIdx_val_of_single rfl i q
theorem dA_r0 (i : S110x512.Idx) (q : dot_S110x4096_S4096x512_S110x512_1_0_0_1_n_n.contr.Idx) :
    (dot_S110x4096_S4096x512_S110x512_1_0_0_1_n_n.rhsIdx i q 0).val = (q ⟨0, by decide⟩).val :=
  dot_S110x4096_S4096x512_S110x512_1_0_0_1_n_n.rhsIdx_val_of_single rfl i q
theorem dA_r1 (i : S110x512.Idx) (q : dot_S110x4096_S4096x512_S110x512_1_0_0_1_n_n.contr.Idx) :
    (dot_S110x4096_S4096x512_S110x512_1_0_0_1_n_n.rhsIdx i q 1).val = (i 1).val := by
  unfold DotDims.rhsIdx
  rw [dif_neg (show ¬(1 : Fin S4096x512.rank) ∈ dot_S110x4096_S4096x512_S110x512_1_0_0_1_n_n.rhsBatch by decide), dif_pos (show (1 : Fin S4096x512.rank) ∈ dot_S110x4096_S4096x512_S110x512_1_0_0_1_n_n.rhsNonContracting by decide)]
  rfl

/-! The product `S110x110` by `S110x512`: the left operand is read at the entry's row and the contracted coordinate, the right at the
    contracted coordinate and the entry's column. -/
theorem dB_l0 (i : S110x512.Idx) (q : dot_S110x110_S110x512_S110x512_1_0_0_1_n_n.contr.Idx) :
    (dot_S110x110_S110x512_S110x512_1_0_0_1_n_n.lhsIdx i q 0).val = (i 0).val := by
  unfold DotDims.lhsIdx
  rw [dif_neg (show ¬(0 : Fin S110x110.rank) ∈ dot_S110x110_S110x512_S110x512_1_0_0_1_n_n.lhsBatch by decide), dif_pos (show (0 : Fin S110x110.rank) ∈ dot_S110x110_S110x512_S110x512_1_0_0_1_n_n.lhsNonContracting by decide)]
  rfl
theorem dB_l1 (i : S110x512.Idx) (q : dot_S110x110_S110x512_S110x512_1_0_0_1_n_n.contr.Idx) :
    (dot_S110x110_S110x512_S110x512_1_0_0_1_n_n.lhsIdx i q 1).val = (q ⟨0, by decide⟩).val :=
  dot_S110x110_S110x512_S110x512_1_0_0_1_n_n.lhsIdx_val_of_single rfl i q
theorem dB_r0 (i : S110x512.Idx) (q : dot_S110x110_S110x512_S110x512_1_0_0_1_n_n.contr.Idx) :
    (dot_S110x110_S110x512_S110x512_1_0_0_1_n_n.rhsIdx i q 0).val = (q ⟨0, by decide⟩).val :=
  dot_S110x110_S110x512_S110x512_1_0_0_1_n_n.rhsIdx_val_of_single rfl i q
theorem dB_r1 (i : S110x512.Idx) (q : dot_S110x110_S110x512_S110x512_1_0_0_1_n_n.contr.Idx) :
    (dot_S110x110_S110x512_S110x512_1_0_0_1_n_n.rhsIdx i q 1).val = (i 1).val := by
  unfold DotDims.rhsIdx
  rw [dif_neg (show ¬(1 : Fin S110x512.rank) ∈ dot_S110x110_S110x512_S110x512_1_0_0_1_n_n.rhsBatch by decide), dif_pos (show (1 : Fin S110x512.rank) ∈ dot_S110x110_S110x512_S110x512_1_0_0_1_n_n.rhsNonContracting by decide)]
  rfl

/-! The product `S110x4096` by `S4096x256`: the left operand is read at the entry's row and the contracted coordinate, the right at the
    contracted coordinate and the entry's column. -/
theorem dC_l0 (i : S110x256.Idx) (q : dot_S110x4096_S4096x256_S110x256_1_0_0_1_n_n.contr.Idx) :
    (dot_S110x4096_S4096x256_S110x256_1_0_0_1_n_n.lhsIdx i q 0).val = (i 0).val := by
  unfold DotDims.lhsIdx
  rw [dif_neg (show ¬(0 : Fin S110x4096.rank) ∈ dot_S110x4096_S4096x256_S110x256_1_0_0_1_n_n.lhsBatch by decide), dif_pos (show (0 : Fin S110x4096.rank) ∈ dot_S110x4096_S4096x256_S110x256_1_0_0_1_n_n.lhsNonContracting by decide)]
  rfl
theorem dC_l1 (i : S110x256.Idx) (q : dot_S110x4096_S4096x256_S110x256_1_0_0_1_n_n.contr.Idx) :
    (dot_S110x4096_S4096x256_S110x256_1_0_0_1_n_n.lhsIdx i q 1).val = (q ⟨0, by decide⟩).val :=
  dot_S110x4096_S4096x256_S110x256_1_0_0_1_n_n.lhsIdx_val_of_single rfl i q
theorem dC_r0 (i : S110x256.Idx) (q : dot_S110x4096_S4096x256_S110x256_1_0_0_1_n_n.contr.Idx) :
    (dot_S110x4096_S4096x256_S110x256_1_0_0_1_n_n.rhsIdx i q 0).val = (q ⟨0, by decide⟩).val :=
  dot_S110x4096_S4096x256_S110x256_1_0_0_1_n_n.rhsIdx_val_of_single rfl i q
theorem dC_r1 (i : S110x256.Idx) (q : dot_S110x4096_S4096x256_S110x256_1_0_0_1_n_n.contr.Idx) :
    (dot_S110x4096_S4096x256_S110x256_1_0_0_1_n_n.rhsIdx i q 1).val = (i 1).val := by
  unfold DotDims.rhsIdx
  rw [dif_neg (show ¬(1 : Fin S4096x256.rank) ∈ dot_S110x4096_S4096x256_S110x256_1_0_0_1_n_n.rhsBatch by decide), dif_pos (show (1 : Fin S4096x256.rank) ∈ dot_S110x4096_S4096x256_S110x256_1_0_0_1_n_n.rhsNonContracting by decide)]
  rfl

/-! The product `S110x110` by `S110x256`: the left operand is read at the entry's row and the contracted coordinate, the right at the
    contracted coordinate and the entry's column. -/
theorem dD_l0 (i : S110x256.Idx) (q : dot_S110x110_S110x256_S110x256_1_0_0_1_n_n.contr.Idx) :
    (dot_S110x110_S110x256_S110x256_1_0_0_1_n_n.lhsIdx i q 0).val = (i 0).val := by
  unfold DotDims.lhsIdx
  rw [dif_neg (show ¬(0 : Fin S110x110.rank) ∈ dot_S110x110_S110x256_S110x256_1_0_0_1_n_n.lhsBatch by decide), dif_pos (show (0 : Fin S110x110.rank) ∈ dot_S110x110_S110x256_S110x256_1_0_0_1_n_n.lhsNonContracting by decide)]
  rfl
theorem dD_l1 (i : S110x256.Idx) (q : dot_S110x110_S110x256_S110x256_1_0_0_1_n_n.contr.Idx) :
    (dot_S110x110_S110x256_S110x256_1_0_0_1_n_n.lhsIdx i q 1).val = (q ⟨0, by decide⟩).val :=
  dot_S110x110_S110x256_S110x256_1_0_0_1_n_n.lhsIdx_val_of_single rfl i q
theorem dD_r0 (i : S110x256.Idx) (q : dot_S110x110_S110x256_S110x256_1_0_0_1_n_n.contr.Idx) :
    (dot_S110x110_S110x256_S110x256_1_0_0_1_n_n.rhsIdx i q 0).val = (q ⟨0, by decide⟩).val :=
  dot_S110x110_S110x256_S110x256_1_0_0_1_n_n.rhsIdx_val_of_single rfl i q
theorem dD_r1 (i : S110x256.Idx) (q : dot_S110x110_S110x256_S110x256_1_0_0_1_n_n.contr.Idx) :
    (dot_S110x110_S110x256_S110x256_1_0_0_1_n_n.rhsIdx i q 1).val = (i 1).val := by
  unfold DotDims.rhsIdx
  rw [dif_neg (show ¬(1 : Fin S110x256.rank) ∈ dot_S110x110_S110x256_S110x256_1_0_0_1_n_n.rhsBatch by decide), dif_pos (show (1 : Fin S110x256.rank) ∈ dot_S110x110_S110x256_S110x256_1_0_0_1_n_n.rhsNonContracting by decide)]
  rfl

/-- The word of zero bits, as the rectifier's floor spells it. -/
abbrev z : EReal := Ideal.ofBits .f32 0x00000000#32

/-- The first kernel's hidden block before it is narrowed, at (p, q). -/
theorem k0_pay1_apply (v0 : Vec Ideal S110x4096 .bf16) (v2 : Vec Ideal S4096x512 .f32) (v5 : Vec Ideal S1x512 .f32)
    (p : Fin 110) (q : Fin 512) :
    k0_pay1 v0 v2 v5 (ix2 p q) = (∑ k : Fin 4096, v0 (ix2 p k) * v2 (ix2 k q)) + v5 (ix2 (0 : Fin 1) q) := by
  unfold k0_pay1
  simp only [matmul, shapeCast_self]
  rw [addf_apply]
  refine congrArg₂ (· + ·) ?_ ?_
  · rw [Ideal.matmul_constant_zero_apply]
    exact sum_plain dot_S110x4096_S4096x512_S110x512_1_0_0_1_n_n rfl rfl dA_l0 dA_l1 dA_r0 dA_r1 _ _ p q
  · exact broadcastTo_1b_ab_apply _ _ p q

/-- The stored hidden block at (p, q). -/
theorem k0_pay2_apply (v0 : Vec Ideal S110x4096 .bf16) (v2 : Vec Ideal S4096x512 .f32) (v5 : Vec Ideal S1x512 .f32)
    (p : Fin 110) (q : Fin 512) :
    k0_pay2 v0 v2 v5 (ix2 p q) = (∑ k : Fin 4096, v0 (ix2 p k) * v2 (ix2 k q)) + v5 (ix2 (0 : Fin 1) q) := by
  unfold k0_pay2
  exact k0_pay1_apply v0 v2 v5 p q

/-- The stored aggregate block at (p, q). -/
theorem k0_pay3_apply (v0 : Vec Ideal S110x4096 .bf16) (v2 : Vec Ideal S4096x512 .f32) (v5 : Vec Ideal S1x512 .f32)
    (v11 : Vec Ideal S110x110 .f32) (p : Fin 110) (q : Fin 512) :
    k0_pay3 v0 v2 v5 v11 (ix2 p q)
      = ∑ i : Fin 110, v11 (ix2 p i) * ((∑ k : Fin 4096, v0 (ix2 i k) * v2 (ix2 k q)) + v5 (ix2 (0 : Fin 1) q)) := by
  unfold k0_pay3
  simp only [matmul, shapeCast_self]
  rw [truncf_apply, Ideal.matmul_constant_zero_apply]
  refine (sum_plain dot_S110x110_S110x512_S110x512_1_0_0_1_n_n rfl rfl dB_l0 dB_l1 dB_r0 dB_r1 _ _ p q).trans ?_
  refine Finset.sum_congr rfl fun i _ => ?_
  rw [truncf_apply, truncf_apply, k0_pay1_apply]

/-- The second kernel's stored block at (p, q). -/
theorem k1_pay1_apply (v0 v2 : Vec Ideal S110x4096 .bf16) (v4 v6 : Vec Ideal S4096x256 .f32) (v11 : Vec Ideal S1x256 .f32)
    (v18 : Vec Ideal S110x110 .f32) (v21 : Vec Ideal S110x1 .f32) (p : Fin 110) (q : Fin 256) :
    k1_pay1 v0 v2 v4 v6 v11 v18 v21 (ix2 p q)
      = (∑ k : Fin 110, v18 (ix2 p k) *
          max (((∑ j : Fin 4096, v0 (ix2 k j) * v4 (ix2 j q)) + (∑ j : Fin 4096, v2 (ix2 k j) * v6 (ix2 j q)))
            + v11 (ix2 (0 : Fin 1) q)) z)
        + v21 (ix2 p (0 : Fin 1)) := by
  unfold k1_pay1
  simp only [matmul, shapeCast_self]
  rw [addf_apply]
  refine congrArg₂ (· + ·) ?_ ?_
  · rw [Ideal.matmul_constant_zero_apply]
    refine (sum_plain dot_S110x110_S110x256_S110x256_1_0_0_1_n_n rfl rfl dD_l0 dD_l1 dD_r0 dD_r1 _ _ p q).trans ?_
    refine Finset.sum_congr rfl fun k _ => ?_
    rw [truncf_apply, truncf_apply, maximumf_apply, addf_apply, addf_apply, broadcast_apply]
    refine congrArg (fun y => v18 (ix2 p k) * max y z) ?_
    refine congrArg₂ (· + ·) (congrArg₂ (· + ·) ?_ ?_) ?_
    · rw [Ideal.matmul_constant_zero_apply]
      exact sum_plain dot_S110x4096_S4096x256_S110x256_1_0_0_1_n_n rfl rfl dC_l0 dC_l1 dC_r0 dC_r1 _ _ k q
    · rw [Ideal.matmul_constant_zero_apply]
      exact sum_plain dot_S110x4096_S4096x256_S110x256_1_0_0_1_n_n rfl rfl dC_l0 dC_l1 dC_r0 dC_r1 _ _ k q
    · exact broadcastTo_1b_ab_apply _ _ k q
  · exact broadcastTo_a1_ab_apply _ _ p q

end Cert.KernelIdeal.Pay

end
-- ==== Proof.Region0Value.lean ====
/-
  The first kernel's two result arrays as whole-array functions of the arrays it is entered with (any entry contents V):
  grid point t writes columns 512·t … 512·t + 511 of both results; the hidden block there is x · W₂[:, those columns] plus
  the bias row's entries, the aggregate block the normalised adjacency times that hidden block. The eight column blocks
  tile the 4096 columns, so each result array ends at one function of the entry arrays:
    hidden(n, c) = ∑ₖ x(n,k) · W₂(k,c) + b(0,c),   aggregate(j, c) = ∑ᵢ mn(j,i) · hidden(i,c).
-/
import proofs.«164711_j38817914421721_2_alg».proof.Proof.Gen.KernelIdeal.Frame
import proofs.«164711_j38817914421721_2_alg».proof.Proof.KernelPay
import proofs.«164711_j38817914421721_2_alg».proof.Proof.Spec
import Idealize.ShloMosaic.Lib.Pipeline.Value

set_option maxRecDepth 16384

noncomputable section

open scoped BigOperators

namespace Cert.KernelIdeal.Val0

open Cert.KernelIdeal Cert.KernelIdeal.Gen Idealize.ShloMosaic Idealize.ShloMosaic.TcCoe Idealize.SL.Sem
open Idealize.ShloMosaic.ValueIdx
open Idealize.ShloMosaic.Pipeline (Dat)
open Cert.Spec (hid aggK)

variable (V : (c : Dev nD) → (b : Ref sig .tc) → Buf (Elt Ideal) ((c : Thread nD τ).loc b))

theorem hz : (![0, 0] : Fin 2 → Nat) = fun _ => 0 := funext fun a => by fin_cases a <;> rfl

/-! ## The entry arrays, each at its literal type -/

abbrev xarr (c : Dev nD) : S110x4096.Idx → EReal := V c main_v10
abbrev warr (c : Dev nD) : S4096x4096.Idx → EReal := V c main_arg2
abbrev barr (c : Dev nD) : S1x4096.Idx → EReal := V c main_v11
abbrev marr (c : Dev nD) : S110x110.Idx → EReal := V c main_v9

/-- The hidden features of the entry arrays. -/
abbrev hidV (c : Dev nD) : Fin 110 → Fin 4096 → EReal :=
  hid (fun n k => xarr V c (ix2 n k)) (fun k j => warr V c (ix2 k j)) (fun j => barr V c (ix2 (0 : Fin 1) j))

/-- The hidden array. -/
abbrev Hfun (c : Dev nD) : S110x4096.Idx → EReal := fun i => hidV V c (i 0) (i 1)
/-- The aggregate array. -/
abbrev Afun (c : Dev nD) : S110x4096.Idx → EReal := fun i => aggK (fun j i' => marr V c (ix2 j i')) (hidV V c) (i 0) (i 1)

/-! ## The printed index maps over the eight points -/

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val :=
  (by decide +kernel : ∀ t : Fin grid0.N, _)
theorem idx2 : ∀ t : Fin cfg0.N, win0_2.index t (0 : Fin 2) = 0 ∧ win0_2.index t (1 : Fin 2) = t.val :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = t.val :=
  (by decide +kernel : ∀ t : Fin grid0.N, _)
theorem idx5 : ∀ t : Fin cfg0.N, win0_5.index t (0 : Fin 2) = 0 ∧ win0_5.index t (1 : Fin 2) = t.val :=
  (by decide +kernel : ∀ t : Fin grid0.N, _)

/-- Column q of block t is column 512·t + q of the array. -/
def col (t : Fin cfg0.N) (q : Fin 512) : Fin 4096 :=
  ⟨512 * t.val + q.val, by have ht : t.val < 8 := lt_of_lt_of_eq t.isLt N_0; have := q.isLt; omega⟩

/-! ## Each input block, at its literal type, read off its array -/

abbrev xb (c : Dev nD) (t : Fin cfg0.N) : Vec Ideal S110x4096 .bf16 := iblk0 V c 0 t
abbrev wb (c : Dev nD) (t : Fin cfg0.N) : Vec Ideal S4096x512 .f32 := iblk0 V c 1 t
abbrev bb (c : Dev nD) (t : Fin cfg0.N) : Vec Ideal S1x512 .f32 := iblk0 V c 2 t
abbrev mb (c : Dev nD) (t : Fin cfg0.N) : Vec Ideal S110x110 .f32 := iblk0 V c 3 t

theorem blk0 (c : Dev nD) (t : Fin cfg0.N) (p : Fin 110) (k : Fin 4096) :
    xb V c t (ix2 p k) = xarr V c (ix2 p k) := by
  obtain ⟨e0, e1⟩ := idx0 t
  show ((cfg0.win _).blk t).view.read (Elt Ideal) _ _ = _
  rw [View.read_apply]
  show V c main_v10 _ = V c main_v10 _
  refine congrArg _ ?_
  funext a; apply Fin.ext
  match a with
  | ⟨0, _⟩ => show win0_0.index t (0 : Fin 2) * 110 + 1 * p.val = p.val; rw [e0]; omega
  | ⟨1, _⟩ => show win0_0.index t (1 : Fin 2) * 4096 + 1 * k.val = k.val; rw [e1]; omega

theorem blk1 (c : Dev nD) (t : Fin cfg0.N) (k : Fin 4096) (q : Fin 512) :
    wb V c t (ix2 k q) = warr V c (ix2 k (col t q)) := by
  obtain ⟨e0, e1⟩ := idx1 t
  show ((cfg0.win _).blk t).view.read (Elt Ideal) _ _ = _
  rw [View.read_apply]
  show V c main_arg2 _ = V c main_arg2 _
  refine congrArg _ ?_
  funext a; apply Fin.ext
  match a with
  | ⟨0, _⟩ => show win0_1.index t (0 : Fin 2) * 4096 + 1 * k.val = k.val; rw [e0]; omega
  | ⟨1, _⟩ => show win0_1.index t (1 : Fin 2) * 512 + 1 * q.val = 512 * t.val + q.val; rw [e1]; omega

theorem blk2 (c : Dev nD) (t : Fin cfg0.N) (q : Fin 512) :
    bb V c t (ix2 (0 : Fin 1) q) = barr V c (ix2 (0 : Fin 1) (col t q)) := by
  obtain ⟨e0, e1⟩ := idx2 t
  show ((cfg0.win _).blk t).view.read (Elt Ideal) _ _ = _
  rw [View.read_apply]
  show V c main_v11 _ = V c main_v11 _
  refine congrArg _ ?_
  funext a; apply Fin.ext
  match a with
  | ⟨0, _⟩ => show win0_2.index t (0 : Fin 2) * 1 + 1 * 0 = 0; rw [e0]
  | ⟨1, _⟩ => show win0_2.index t (1 : Fin 2) * 512 + 1 * q.val = 512 * t.val + q.val; rw [e1]; omega

theorem blk3 (c : Dev nD) (t : Fin cfg0.N) (p i : Fin 110) :
    mb V c t (ix2 p i) = marr V c (ix2 p i) := by
  obtain ⟨e0, e1⟩ := idx3 t
  show ((cfg0.win _).blk t).view.read (Elt Ideal) _ _ = _
  rw [View.read_apply]
  show V c main_v9 _ = V c main_v9 _
  refine congrArg _ ?_
  funext a; apply Fin.ext
  match a with
  | ⟨0, _⟩ => show win0_3.index t (0 : Fin 2) * 110 + 1 * p.val = p.val; rw [e0]; omega
  | ⟨1, _⟩ => show win0_3.index t (1 : Fin 2) * 110 + 1 * i.val = i.val; rw [e1]; omega

/-- The hidden block's entry (p, q) at point t, off the entry arrays. -/
theorem hid_blk (c : Dev nD) (t : Fin cfg0.N) (p : Fin 110) (q : Fin 512) :
    (∑ k : Fin 4096, xb V c t (ix2 p k) * wb V c t (ix2 k q))
        + bb V c t (ix2 (0 : Fin 1) q)
      = hidV V c p (col t q) := by
  unfold hidV hid
  refine congrArg₂ (· + ·) (Finset.sum_congr rfl fun k _ => ?_) (blk2 V c t q)
  rw [blk0, blk1]

/-- Where entry (p, q) of an output block of point t sits in the array. -/
theorem emb4 (t : Fin cfg0.N) (p : Fin 110) (q : Fin 512) :
    ((cfg0.win 4).blk t).view.emb (ix2 p q) = ix2 p (col t q) := by
  obtain ⟨e0, e1⟩ := idx4 t
  funext a; apply Fin.ext
  match a with
  | ⟨0, _⟩ => show win0_4.index t (0 : Fin 2) * 110 + 1 * p.val = p.val; rw [e0]; omega
  | ⟨1, _⟩ => show win0_4.index t (1 : Fin 2) * 512 + 1 * q.val = 512 * t.val + q.val; rw [e1]; omega

theorem emb5 (t : Fin cfg0.N) (p : Fin 110) (q : Fin 512) :
    ((cfg0.win 5).blk t).view.emb (ix2 p q) = ix2 p (col t q) := by
  obtain ⟨e0, e1⟩ := idx5 t
  funext a; apply Fin.ext
  match a with
  | ⟨0, _⟩ => show win0_5.index t (0 : Fin 2) * 110 + 1 * p.val = p.val; rw [e0]; omega
  | ⟨1, _⟩ => show win0_5.index t (1 : Fin 2) * 512 + 1 * q.val = 512 * t.val + q.val; rw [e1]; omega

/-! ## What each point writes back -/

/-- Point t writes back block t of the hidden array. -/
theorem flushed4_eq (c : Dev nD) (t : Fin cfg0.N) :
    (dat0 V c).flushed 4 t = ((cfg0.win 4).blk t).view.read (Elt Ideal) (Hfun V c) := by
  show (cfg0.win 4).cut (grid0.coords t) ((dat0 V c).after 4 t) = _
  rw [after0_4]
  unfold out0_4
  rw [View.canon_unit_zero hz]
  simp only [View.ld_unit_zero (S := S110x4096) hz, View.ld_unit_zero (S := S4096x512) hz, View.ld_unit_zero (S := S1x512) hz]
  funext j
  obtain ⟨p, q, rfl⟩ : ∃ (p : Fin 110) (q : Fin 512), j = ix2 p q := ⟨j 0, j 1, eq_ix2 j⟩
  show k0_pay2 (iblk0 V c 0 t) (iblk0 V c 1 t) (iblk0 V c 2 t) (ix2 p q) = Hfun V c (((cfg0.win 4).blk t).view.emb (ix2 p q))
  rw [emb4]
  refine (Pay.k0_pay2_apply (iblk0 V c 0 t) (iblk0 V c 1 t) (iblk0 V c 2 t) p q).trans ?_
  exact hid_blk V c t p q

/-- Point t writes back block t of the aggregate array. -/
theorem flushed5_eq (c : Dev nD) (t : Fin cfg0.N) :
    (dat0 V c).flushed 5 t = ((cfg0.win 5).blk t).view.read (Elt Ideal) (Afun V c) := by
  show (cfg0.win 5).cut (grid0.coords t) ((dat0 V c).after 5 t) = _
  rw [after0_5]
  unfold out0_5
  rw [View.canon_unit_zero hz]
  simp only [View.ld_unit_zero (S := S110x4096) hz, View.ld_unit_zero (S := S4096x512) hz, View.ld_unit_zero (S := S1x512) hz,
    View.ld_unit_zero (S := S110x110) hz]
  funext j
  obtain ⟨p, q, rfl⟩ : ∃ (p : Fin 110) (q : Fin 512), j = ix2 p q := ⟨j 0, j 1, eq_ix2 j⟩
  show k0_pay3 (iblk0 V c 0 t) (iblk0 V c 1 t) (iblk0 V c 2 t) (iblk0 V c 3 t) (ix2 p q)
    = Afun V c (((cfg0.win 5).blk t).view.emb (ix2 p q))
  rw [emb5]
  refine (Pay.k0_pay3_apply (iblk0 V c 0 t) (iblk0 V c 1 t) (iblk0 V c 2 t) (iblk0 V c 3 t) p q).trans ?_
  show _ = aggK (fun j i' => marr V c (ix2 j i')) (hidV V c) p (col t q)
  unfold aggK
  refine Finset.sum_congr rfl fun i _ => ?_
  exact congrArg₂ (· * ·) (blk3 V c t p i) (hid_blk V c t i q)

/-! ## The eight column blocks tile the array -/

theorem mem_blk4 (t : Fin cfg0.N) (i : S110x4096.Idx) :
    i ∈ ((cfg0.win 4).blk t).view.set ↔ ∀ a : Fin 2, win0_4.index t a * S110x512.size a ≤ (i a).val ∧ (i a).val < win0_4.index t a * S110x512.size a + S110x512.size a := by
  show i ∈ ((View.whole main_v12_0).slice (win0_4.rect t)).set ↔ _
  rw [View.set_slice_whole, Rect.mem_set_unit]
  exact Iff.rfl

theorem mem_blk5 (t : Fin cfg0.N) (i : S110x4096.Idx) :
    i ∈ ((cfg0.win 5).blk t).view.set ↔ ∀ a : Fin 2, win0_5.index t a * S110x512.size a ≤ (i a).val ∧ (i a).val < win0_5.index t a * S110x512.size a + S110x512.size a := by
  show i ∈ ((View.whole main_v12_1).slice (win0_5.rect t)).set ↔ _
  rw [View.set_slice_whole, Rect.mem_set_unit]
  exact Iff.rfl

/-- The point whose block holds column c. -/
def ptOf (i : S110x4096.Idx) : Fin cfg0.N :=
  ⟨(i 1).val / 512, by have h1 : (i 1).val < 4096 := (i 1).isLt; rw [show cfg0.N = 8 from N_0]; show (i 1).val / 512 < 8; omega⟩

theorem cover4 (i : S110x4096.Idx) : ∃ t : Fin cfg0.N, (cfg0.win 4).flush t = true ∧ i ∈ ((cfg0.win 4).blk t).view.set := by
  have h0 : (i 0).val < 110 := (i 0).isLt
  have h1 : (i 1).val < 4096 := (i 1).isLt
  refine ⟨ptOf i, flush0_4 _, ?_⟩
  rw [mem_blk4]
  obtain ⟨e0, e1⟩ := idx4 (ptOf i)
  have hv : (ptOf i).val = (i 1).val / 512 := rfl
  intro a
  match a with
  | ⟨0, _⟩ => show win0_4.index (ptOf i) (0 : Fin 2) * 110 ≤ (i 0).val ∧ (i 0).val < win0_4.index (ptOf i) (0 : Fin 2) * 110 + 110; rw [e0]; omega
  | ⟨1, _⟩ => show win0_4.index (ptOf i) (1 : Fin 2) * 512 ≤ (i 1).val ∧ (i 1).val < win0_4.index (ptOf i) (1 : Fin 2) * 512 + 512; rw [e1, hv]; omega

theorem cover5 (i : S110x4096.Idx) : ∃ t : Fin cfg0.N, (cfg0.win 5).flush t = true ∧ i ∈ ((cfg0.win 5).blk t).view.set := by
  have h0 : (i 0).val < 110 := (i 0).isLt
  have h1 : (i 1).val < 4096 := (i 1).isLt
  refine ⟨ptOf i, flush0_5 _, ?_⟩
  rw [mem_blk5]
  obtain ⟨e0, e1⟩ := idx5 (ptOf i)
  have hv : (ptOf i).val = (i 1).val / 512 := rfl
  intro a
  match a with
  | ⟨0, _⟩ => show win0_5.index (ptOf i) (0 : Fin 2) * 110 ≤ (i 0).val ∧ (i 0).val < win0_5.index (ptOf i) (0 : Fin 2) * 110 + 110; rw [e0]; omega
  | ⟨1, _⟩ => show win0_5.index (ptOf i) (1 : Fin 2) * 512 ≤ (i 1).val ∧ (i 1).val < win0_5.index (ptOf i) (1 : Fin 2) * 512 + 512; rw [e1, hv]; omega

/-! ## The two result arrays after the region -/

theorem final4 (c : Dev nD) : (dat0 V c).arrAt 4 cfg0.N = Hfun V c :=
  (dat0 V c).arrAt_eq_of_cover 4 (Hfun V c) (fun t _ => flushed4_eq V c t) cover4

theorem final5 (c : Dev nD) : (dat0 V c).arrAt 5 cfg0.N = Afun V c :=
  (dat0 V c).arrAt_eq_of_cover 5 (Afun V c) (fun t _ => flushed5_eq V c t) cover5

end Cert.KernelIdeal.Val0

end
-- ==== Proof.Region1Value.lean ====
/-
  The second kernel's result array as a whole-array function of the arrays it is entered with (any entry contents V): grid
  point t writes columns 256·t … 256·t + 255. There the body contracts the hidden features against the upper 4096 rows of
  its W₁ column block and the aggregate against the lower 4096 rows, adds the bias row's entries, rectifies, mixes the nodes
  with Wl on the left and adds bl down the rows. The sixteen column blocks tile the 4096 columns, so the array ends at
    out(n, c) = ∑ₖ Wl(n,k) · max(pre(k,c), 0) + bl(n,0),
    pre(k, c) = ∑ⱼ h(k,j) · W₁(j,c) + ∑ⱼ ag(k,j) · W₁(4096 + j, c) + b₁(0,c).
-/
import proofs.«164711_j38817914421721_2_alg».proof.Proof.Gen.KernelIdeal.Frame
import proofs.«164711_j38817914421721_2_alg».proof.Proof.KernelPay
import proofs.«164711_j38817914421721_2_alg».proof.Proof.Spec
import Idealize.ShloMosaic.Lib.Pipeline.Value

set_option maxRecDepth 16384

noncomputable section

open scoped BigOperators

namespace Cert.KernelIdeal.Val1

open Cert.KernelIdeal Cert.KernelIdeal.Gen Idealize.ShloMosaic Idealize.ShloMosaic.TcCoe Idealize.SL.Sem
open Idealize.ShloMosaic.ValueIdx
open Idealize.ShloMosaic.Pipeline (Dat)
open Cert.Spec (preK outK lo hi)

variable (V : (c : Dev nD) → (b : Ref sig .tc) → Buf (Elt Ideal) ((c : Thread nD τ).loc b))

theorem hz : (![0, 0] : Fin 2 → Nat) = fun _ => 0 := funext fun a => by fin_cases a <;> rfl

/-! ## The entry arrays, each at its literal type -/

abbrev harr (c : Dev nD) : S110x4096.Idx → EReal := V c main_v12_0
abbrev aarr (c : Dev nD) : S110x4096.Idx → EReal := V c main_v12_1
abbrev w1arr (c : Dev nD) : S8192x4096.Idx → EReal := V c main_arg4
abbrev b1arr (c : Dev nD) : S1x4096.Idx → EReal := V c main_v13
abbrev wlarr (c : Dev nD) : S110x110.Idx → EReal := V c main_arg6
abbrev blarr (c : Dev nD) : S110x1.Idx → EReal := V c main_v14

/-- The second layer before the rectifier, of the entry arrays. -/
abbrev preV (c : Dev nD) : Fin 110 → Fin 4096 → EReal :=
  preK (fun n k => harr V c (ix2 n k)) (fun n k => aarr V c (ix2 n k)) (fun k j => w1arr V c (ix2 k j))
    (fun j => b1arr V c (ix2 (0 : Fin 1) j))

/-- The result array. -/
abbrev Ofun (c : Dev nD) : S110x4096.Idx → EReal := fun i =>
  outK (preV V c) (fun n k => wlarr V c (ix2 n k)) (fun n => blarr V c (ix2 n (0 : Fin 1))) (i 0) (i 1)

/-! ## The printed index maps over the sixteen points -/

theorem idx0 : ∀ t : Fin cfg1.N, win1_0.index t (0 : Fin 2) = 0 ∧ win1_0.index t (1 : Fin 2) = 0 :=
  (by decide +kernel : ∀ t : Fin grid1.N, _)
theorem idx1 : ∀ t : Fin cfg1.N, win1_1.index t (0 : Fin 2) = 0 ∧ win1_1.index t (1 : Fin 2) = 0 :=
  (by decide +kernel : ∀ t : Fin grid1.N, _)
theorem idx2 : ∀ t : Fin cfg1.N, win1_2.index t (0 : Fin 2) = 0 ∧ win1_2.index t (1 : Fin 2) = t.val :=
  (by decide +kernel : ∀ t : Fin grid1.N, _)
theorem idx3 : ∀ t : Fin cfg1.N, win1_3.index t (0 : Fin 2) = 0 ∧ win1_3.index t (1 : Fin 2) = t.val :=
  (by decide +kernel : ∀ t : Fin grid1.N, _)
theorem idx4 : ∀ t : Fin cfg1.N, win1_4.index t (0 : Fin 2) = 0 ∧ win1_4.index t (1 : Fin 2) = 0 :=
  (by decide +kernel : ∀ t : Fin grid1.N, _)
theorem idx5 : ∀ t : Fin cfg1.N, win1_5.index t (0 : Fin 2) = 0 ∧ win1_5.index t (1 : Fin 2) = 0 :=
  (by decide +kernel : ∀ t : Fin grid1.N, _)
theorem idx6 : ∀ t : Fin cfg1.N, win1_6.index t (0 : Fin 2) = 0 ∧ win1_6.index t (1 : Fin 2) = t.val :=
  (by decide +kernel : ∀ t : Fin grid1.N, _)

/-- Column q of block t is column 256·t + q of the array. -/
def col (t : Fin cfg1.N) (q : Fin 256) : Fin 4096 :=
  ⟨256 * t.val + q.val, by have ht : t.val < 16 := lt_of_lt_of_eq t.isLt N_1; have := q.isLt; omega⟩

/-! ## Each input block, at its literal type, read off its array -/

abbrev hb (c : Dev nD) (t : Fin cfg1.N) : Vec Ideal S110x4096 .bf16 := iblk1 V c 0 t
abbrev ab (c : Dev nD) (t : Fin cfg1.N) : Vec Ideal S110x4096 .bf16 := iblk1 V c 1 t
abbrev w1b (c : Dev nD) (t : Fin cfg1.N) : Vec Ideal S8192x256 .f32 := iblk1 V c 2 t
abbrev b1b (c : Dev nD) (t : Fin cfg1.N) : Vec Ideal S1x256 .f32 := iblk1 V c 3 t
abbrev wlb (c : Dev nD) (t : Fin cfg1.N) : Vec Ideal S110x110 .f32 := iblk1 V c 4 t
abbrev blb (c : Dev nD) (t : Fin cfg1.N) : Vec Ideal S110x1 .f32 := iblk1 V c 5 t

theorem blk0 (c : Dev nD) (t : Fin cfg1.N) (p : Fin 110) (k : Fin 4096) :
    hb V c t (ix2 p k) = harr V c (ix2 p k) := by
  obtain ⟨e0, e1⟩ := idx0 t
  show ((cfg1.win _).blk t).view.read (Elt Ideal) _ _ = _
  rw [View.read_apply]
  show V c main_v12_0 _ = V c main_v12_0 _
  refine congrArg _ ?_
  funext a; apply Fin.ext
  match a with
  | ⟨0, _⟩ => show win1_0.index t (0 : Fin 2) * 110 + 1 * p.val = p.val; rw [e0]; omega
  | ⟨1, _⟩ => show win1_0.index t (1 : Fin 2) * 4096 + 1 * k.val = k.val; rw [e1]; omega

theorem blk1 (c : Dev nD) (t : Fin cfg1.N) (p : Fin 110) (k : Fin 4096) :
    ab V c t (ix2 p k) = aarr V c (ix2 p k) := by
  obtain ⟨e0, e1⟩ := idx1 t
  show ((cfg1.win _).blk t).view.read (Elt Ideal) _ _ = _
  rw [View.read_apply]
  show V c main_v12_1 _ = V c main_v12_1 _
  refine congrArg _ ?_
  funext a; apply Fin.ext
  match a with
  | ⟨0, _⟩ => show win1_1.index t (0 : Fin 2) * 110 + 1 * p.val = p.val; rw [e0]; omega
  | ⟨1, _⟩ => show win1_1.index t (1 : Fin 2) * 4096 + 1 * k.val = k.val; rw [e1]; omega

theorem blk2 (c : Dev nD) (t : Fin cfg1.N) (k : Fin 8192) (q : Fin 256) :
    w1b V c t (ix2 k q) = w1arr V c (ix2 k (col t q)) := by
  obtain ⟨e0, e1⟩ := idx2 t
  show ((cfg1.win _).blk t).view.read (Elt Ideal) _ _ = _
  rw [View.read_apply]
  show V c main_arg4 _ = V c main_arg4 _
  refine congrArg _ ?_
  funext a; apply Fin.ext
  match a with
  | ⟨0, _⟩ => show win1_2.index t (0 : Fin 2) * 8192 + 1 * k.val = k.val; rw [e0]; omega
  | ⟨1, _⟩ => show win1_2.index t (1 : Fin 2) * 256 + 1 * q.val = 256 * t.val + q.val; rw [e1]; omega

theorem blk3 (c : Dev nD) (t : Fin cfg1.N) (q : Fin 256) :
    b1b V c t (ix2 (0 : Fin 1) q) = b1arr V c (ix2 (0 : Fin 1) (col t q)) := by
  obtain ⟨e0, e1⟩ := idx3 t
  show ((cfg1.win _).blk t).view.read (Elt Ideal) _ _ = _
  rw [View.read_apply]
  show V c main_v13 _ = V c main_v13 _
  refine congrArg _ ?_
  funext a; apply Fin.ext
  match a with
  | ⟨0, _⟩ => show win1_3.index t (0 : Fin 2) * 1 + 1 * 0 = 0; rw [e0]
  | ⟨1, _⟩ => show win1_3.index t (1 : Fin 2) * 256 + 1 * q.val = 256 * t.val + q.val; rw [e1]; omega

theorem blk4 (c : Dev nD) (t : Fin cfg1.N) (p k : Fin 110) :
    wlb V c t (ix2 p k) = wlarr V c (ix2 p k) := by
  obtain ⟨e0, e1⟩ := idx4 t
  show ((cfg1.win _).blk t).view.read (Elt Ideal) _ _ = _
  rw [View.read_apply]
  show V c main_arg6 _ = V c main_arg6 _
  refine congrArg _ ?_
  funext a; apply Fin.ext
  match a with
  | ⟨0, _⟩ => show win1_4.index t (0 : Fin 2) * 110 + 1 * p.val = p.val; rw [e0]; omega
  | ⟨1, _⟩ => show win1_4.index t (1 : Fin 2) * 110 + 1 * k.val = k.val; rw [e1]; omega

theorem blk5 (c : Dev nD) (t : Fin cfg1.N) (p : Fin 110) :
    blb V c t (ix2 p (0 : Fin 1)) = blarr V c (ix2 p (0 : Fin 1)) := by
  obtain ⟨e0, e1⟩ := idx5 t
  show ((cfg1.win _).blk t).view.read (Elt Ideal) _ _ = _
  rw [View.read_apply]
  show V c main_v14 _ = V c main_v14 _
  refine congrArg _ ?_
  funext a; apply Fin.ext
  match a with
  | ⟨0, _⟩ => show win1_5.index t (0 : Fin 2) * 110 + 1 * p.val = p.val; rw [e0]; omega
  | ⟨1, _⟩ => show win1_5.index t (1 : Fin 2) * 1 + 1 * 0 = 0; rw [e1]

/-- The upper 4096 rows of a W₁ column block, loaded. -/
theorem ld_top (X : Vec Ideal S8192x256 .f32) (j : Fin 4096) (q : Fin 256) :
    View.ld X r1_1 (ix2 j q) = X (ix2 (lo j) q) := by
  show X (r1_1.emb (ix2 j q)) = _
  refine congrArg X ?_
  funext a; apply Fin.ext
  match a with
  | ⟨0, _⟩ => show 0 + 1 * j.val = j.val; omega
  | ⟨1, _⟩ => show 0 + 1 * q.val = q.val; omega

/-- The lower 4096 rows, loaded. -/
theorem ld_bot (X : Vec Ideal S8192x256 .f32) (j : Fin 4096) (q : Fin 256) :
    View.ld X r1_2 (ix2 j q) = X (ix2 (hi j) q) := by
  show X (r1_2.emb (ix2 j q)) = _
  refine congrArg X ?_
  funext a; apply Fin.ext
  match a with
  | ⟨0, _⟩ => show 4096 + 1 * j.val = 4096 + j.val; omega
  | ⟨1, _⟩ => show 0 + 1 * q.val = q.val; omega

/-- Where entry (p, q) of the output block of point t sits in the array. -/
theorem emb6 (t : Fin cfg1.N) (p : Fin 110) (q : Fin 256) :
    ((cfg1.win 6).blk t).view.emb (ix2 p q) = ix2 p (col t q) := by
  obtain ⟨e0, e1⟩ := idx6 t
  funext a; apply Fin.ext
  match a with
  | ⟨0, _⟩ => show win1_6.index t (0 : Fin 2) * 110 + 1 * p.val = p.val; rw [e0]; omega
  | ⟨1, _⟩ => show win1_6.index t (1 : Fin 2) * 256 + 1 * q.val = 256 * t.val + q.val; rw [e1]; omega

/-! ## What each point writes back -/

/-- Point t writes back block t of the result array. -/
theorem flushed6_eq (c : Dev nD) (t : Fin cfg1.N) :
    (dat1 V c).flushed 6 t = ((cfg1.win 6).blk t).view.read (Elt Ideal) (Ofun V c) := by
  show (cfg1.win 6).cut (grid1.coords t) ((dat1 V c).after 6 t) = _
  rw [after1_6]
  unfold out1_6
  rw [View.canon_unit_zero hz]
  simp only [View.ld_unit_zero (S := S110x4096) hz, View.ld_unit_zero (S := S1x256) hz, View.ld_unit_zero (S := S110x110) hz,
    View.ld_unit_zero (S := S110x1) hz]
  funext j
  obtain ⟨p, q, rfl⟩ : ∃ (p : Fin 110) (q : Fin 256), j = ix2 p q := ⟨j 0, j 1, eq_ix2 j⟩
  show k1_pay1 (iblk1 V c 0 t) (iblk1 V c 1 t) (View.ld (iblk1 V c 2 t) r1_1) (View.ld (iblk1 V c 2 t) r1_2)
      (iblk1 V c 3 t) (iblk1 V c 4 t) (iblk1 V c 5 t) (ix2 p q)
    = Ofun V c (((cfg1.win 6).blk t).view.emb (ix2 p q))
  rw [emb6]
  refine (Pay.k1_pay1_apply (iblk1 V c 0 t) (iblk1 V c 1 t) (View.ld (iblk1 V c 2 t) r1_1) (View.ld (iblk1 V c 2 t) r1_2)
      (iblk1 V c 3 t) (iblk1 V c 4 t) (iblk1 V c 5 t) p q).trans ?_
  show _ = outK (preV V c) (fun n k => wlarr V c (ix2 n k)) (fun n => blarr V c (ix2 n (0 : Fin 1))) p (col t q)
  unfold outK
  refine congrArg₂ (· + ·) (Finset.sum_congr rfl fun k _ => ?_) (blk5 V c t p)
  refine congrArg₂ (fun a y => a * max y Cert.Spec.z) (blk4 V c t p k) ?_
  show _ = preK _ _ _ _ k (col t q)
  unfold preK
  refine congrArg₂ (· + ·) (congrArg₂ (· + ·) (Finset.sum_congr rfl fun j _ => ?_) (Finset.sum_congr rfl fun j _ => ?_)) (blk3 V c t q)
  · exact congrArg₂ (· * ·) (blk0 V c t k j) ((ld_top (w1b V c t) j q).trans (blk2 V c t (lo j) q))
  · exact congrArg₂ (· * ·) (blk1 V c t k j) ((ld_bot (w1b V c t) j q).trans (blk2 V c t (hi j) q))

/-! ## The sixteen column blocks tile the array -/

theorem mem_blk6 (t : Fin cfg1.N) (i : S110x4096.Idx) :
    i ∈ ((cfg1.win 6).blk t).view.set ↔ ∀ a : Fin 2, win1_6.index t a * S110x256.size a ≤ (i a).val ∧ (i a).val < win1_6.index t a * S110x256.size a + S110x256.size a := by
  show i ∈ ((View.whole main_v15).slice (win1_6.rect t)).set ↔ _
  rw [View.set_slice_whole, Rect.mem_set_unit]
  exact Iff.rfl

/-- The point whose block holds column c. -/
def ptOf (i : S110x4096.Idx) : Fin cfg1.N :=
  ⟨(i 1).val / 256, by have h1 : (i 1).val < 4096 := (i 1).isLt; rw [show cfg1.N = 16 from N_1]; show (i 1).val / 256 < 16; omega⟩

theorem cover6 (i : S110x4096.Idx) : ∃ t : Fin cfg1.N, (cfg1.win 6).flush t = true ∧ i ∈ ((cfg1.win 6).blk t).view.set := by
  have h0 : (i 0).val < 110 := (i 0).isLt
  have h1 : (i 1).val < 4096 := (i 1).isLt
  refine ⟨ptOf i, flush1_6 _, ?_⟩
  rw [mem_blk6]
  obtain ⟨e0, e1⟩ := idx6 (ptOf i)
  have hv : (ptOf i).val = (i 1).val / 256 := rfl
  intro a
  match a with
  | ⟨0, _⟩ => show win1_6.index (ptOf i) (0 : Fin 2) * 110 ≤ (i 0).val ∧ (i 0).val < win1_6.index (ptOf i) (0 : Fin 2) * 110 + 110; rw [e0]; omega
  | ⟨1, _⟩ => show win1_6.index (ptOf i) (1 : Fin 2) * 256 ≤ (i 1).val ∧ (i 1).val < win1_6.index (ptOf i) (1 : Fin 2) * 256 + 256; rw [e1, hv]; omega

/-! ## The result array after the region -/

theorem final6 (c : Dev nD) : (dat1 V c).arrAt 6 cfg1.N = Ofun V c :=
  (dat1 V c).arrAt_eq_of_cover 6 (Ofun V c) (fun t _ => flushed6_eq V c t) cover6

end Cert.KernelIdeal.Val1

end
-- ==== Proof.LibUnitColumn.lean ====
/-
  General facts about a vector stood up as a column: an `[a]` array cast to `[a, 1]` read at an entry; a vector broadcast along
  axis 0 into a column `[a, 1]`, and a column broadcast across `b` columns, each read at an entry (the host's
  `broadcast_in_dim` spellings of the same two steps).
-/
import Idealize.ShloMosaic.Lib.ValueIdx
import Idealize.ShloMosaic.Lib.ValueLayout
import Idealize.ShloMosaic.Lib.Pipeline.Value

noncomputable section

namespace Cert.LibUnitColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A vector `[a]` (`1 < a`) broadcast along axis 0 into the column `[a, 1]` reads, at `(i, u)`, its entry `i`. -/
theorem broadcastInDim_vec_col_apply {a : ℕ} (ha : a ≠ 1) (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) :=
  broadcastInDim_apply _ h x (ix2 i u) (ix1 i) (fun ax => match ax with
    | ⟨0, _⟩ => by show i.val = if a = 1 then 0 else i.val; rw [if_neg ha])

/-- A column `[a, 1]` (`1 < a`) broadcast across `b` columns reads, at `(i, j)`, the column's entry of row `i`. -/
theorem broadcastInDim_col_mat_apply {a b : ℕ} (ha : a ≠ 1) (x : (⟨2, ![a, 1]⟩ : Shape).Idx → α)
    (h : (⟨2, ![a, 1]⟩ : Shape).BroadcastsInDim ⟨2, ![a, b]⟩ (![0, 1] : Fin 2 → Fin 2)) (i : Fin a) (j : Fin b) :
    broadcastInDim ⟨2, ![a, b]⟩ ![0, 1] h x (ix2 i j) = x (ix2 i (0 : Fin 1)) :=
  broadcastInDim_apply _ h x (ix2 i j) (ix2 i (0 : Fin 1)) (fun ax => match ax with
    | ⟨0, _⟩ => by show i.val = if a = 1 then 0 else i.val; rw [if_neg ha]
    | ⟨1, _⟩ => by show 0 = if (1 : ℕ) = 1 then 0 else j.val; rw [if_pos rfl])

end Cert.LibUnitColumn

end
-- ==== Proof.KernelValue.lean ====
/-
  The idealized kernel program's result array as one function of the argument arrays. The run ends with the result buffer at
  what the second kernel's write-backs leave; that kernel is entered with the first kernel's two result arrays (no host
  operation in between touches them), the second weight matrix and the node-mixing matrix as launched, and the two bias
  vectors reshaped to a row and to a column; the first kernel is entered with x (its narrowing to bf16 is the identity on the
  extended reals), W₂ as launched, b₂ as a row, and the normalised adjacency the host operations before it computed, which
  is carried here as that entry array, unopened.
-/
import proofs.«164711_j38817914421721_2_alg».proof.Proof.KernelRun
import proofs.«164711_j38817914421721_2_alg».proof.Proof.Region0Value
import proofs.«164711_j38817914421721_2_alg».proof.Proof.Region1Value
import proofs.«164711_j38817914421721_2_alg».proof.Proof.LibUnitColumn
import Idealize.ShloMosaic.Lib.StableHlo.Run
import Idealize.ShloMosaic.Lib.ValueLayout

set_option maxRecDepth 16384

noncomputable section

open scoped BigOperators

namespace Cert.KernelIdeal.KVal

open Cert.KernelIdeal Cert.KernelIdeal.Gen Idealize.ShloMosaic Idealize.ShloMosaic.TcCoe Idealize.SL.Sem
open Idealize.ShloMosaic.StableHlo
open Idealize.ShloMosaic.ValueIdx
open Cert.Spec (hid aggK preK outK)

variable (m : (ℓ : Loc nD τ sig) → Buf (Elt Ideal) ℓ) (ρ : Dev nD → PrngReg)

/-! ## The argument arrays, at their literal types -/

abbrev a0 (c : Dev nD) : S110x4096.Idx → EReal := m ((c : Thread nD τ).loc main_arg0)
abbrev a2 (c : Dev nD) : S4096x4096.Idx → EReal := m ((c : Thread nD τ).loc main_arg2)
abbrev a3 (c : Dev nD) : S4096.Idx → EReal := m ((c : Thread nD τ).loc main_arg3)
abbrev a4 (c : Dev nD) : S8192x4096.Idx → EReal := m ((c : Thread nD τ).loc main_arg4)
abbrev a5 (c : Dev nD) : S4096.Idx → EReal := m ((c : Thread nD τ).loc main_arg5)
abbrev a6 (c : Dev nD) : S110x110.Idx → EReal := m ((c : Thread nD τ).loc main_arg6)
abbrev a7 (c : Dev nD) : S110.Idx → EReal := m ((c : Thread nD τ).loc main_arg7)

/-- The normalised adjacency the first kernel is entered with. -/
abbrev mnorm (c : Dev nD) : S110x110.Idx → EReal := V1 m ρ c main_v9

/-! ## What the first kernel is entered with -/

theorem V1_x (c : Dev nD) : V1 m ρ c main_v10 = a0 m c := by
  show StableHlo.after hostOps0 (W0 m ρ c) (Proc.devRef .tc main_v10) = _
  after_results
  rfl

theorem V1_w2 (c : Dev nD) : V1 m ρ c main_arg2 = a2 m c := by
  show StableHlo.after hostOps0 (W0 m ρ c) (Proc.devRef .tc main_arg2) = _
  after_results

theorem V1_b2 (c : Dev nD) (j : Fin 4096) : (V1 m ρ c main_v11 : S1x4096.Idx → EReal) (ix2 (0 : Fin 1) j) = a3 m c (ix1 j) := by
  have e : (V1 m ρ c main_v11 : S1x4096.Idx → EReal) = shapeCast S1x4096 (a3 m c) shapeCasts_S4096_S1x4096 := by
    show StableHlo.after hostOps0 (W0 m ρ c) (Proc.devRef .tc main_v11) = _
    after_results
    rfl
  rw [e]
  exact shapeCast_a_1a_apply _ _ _ j

/-- The hidden features of the first kernel's entry arrays are those of the arguments. -/
theorem hid_eq (c : Dev nD) :
    Val0.hidV (V1 m ρ) c
      = hid (fun n k => a0 m c (ix2 n k)) (fun k j => a2 m c (ix2 k j)) (fun j => a3 m c (ix1 j)) := by
  show hid (fun n k => (V1 m ρ c main_v10 : S110x4096.Idx → EReal) (ix2 n k))
      (fun k j => (V1 m ρ c main_arg2 : S4096x4096.Idx → EReal) (ix2 k j))
      (fun j => (V1 m ρ c main_v11 : S1x4096.Idx → EReal) (ix2 (0 : Fin 1) j)) = _
  rw [V1_x, V1_w2]
  refine congrArg (hid _ _) ?_
  funext j
  exact V1_b2 m ρ c j

/-! ## The arguments the second kernel and the operations before it read, as the first kernel leaves them -/

theorem W2_arg4 (c : Dev nD) : W2 m ρ c (Proc.devRef .tc main_arg4) = a4 m c := by
  rw [W2_of_ne m ρ c main_arg4 (by decide)]
  show StableHlo.after hostOps0 (W0 m ρ c) (Proc.devRef .tc main_arg4) = _
  after_results
theorem W2_arg5 (c : Dev nD) : W2 m ρ c (Proc.devRef .tc main_arg5) = a5 m c := by
  rw [W2_of_ne m ρ c main_arg5 (by decide)]
  show StableHlo.after hostOps0 (W0 m ρ c) (Proc.devRef .tc main_arg5) = _
  after_results
theorem W2_arg6 (c : Dev nD) : W2 m ρ c (Proc.devRef .tc main_arg6) = a6 m c := by
  rw [W2_of_ne m ρ c main_arg6 (by decide)]
  show StableHlo.after hostOps0 (W0 m ρ c) (Proc.devRef .tc main_arg6) = _
  after_results
theorem W2_arg7 (c : Dev nD) : W2 m ρ c (Proc.devRef .tc main_arg7) = a7 m c := by
  rw [W2_of_ne m ρ c main_arg7 (by decide)]
  show StableHlo.after hostOps0 (W0 m ρ c) (Proc.devRef .tc main_arg7) = _
  after_results

/-! ## What the second kernel is entered with -/

theorem V3_h (c : Dev nD) : V3 m ρ c main_v12_0 = Val0.Hfun (V1 m ρ) c := by
  show StableHlo.after hostOps1 (W2 m ρ c) (Proc.devRef .tc main_v12_0) = _
  after_results
  exact (W2_arr m ρ c 4).trans (Val0.final4 (V1 m ρ) c)

theorem V3_a (c : Dev nD) : V3 m ρ c main_v12_1 = Val0.Afun (V1 m ρ) c := by
  show StableHlo.after hostOps1 (W2 m ρ c) (Proc.devRef .tc main_v12_1) = _
  after_results
  exact (W2_arr m ρ c 5).trans (Val0.final5 (V1 m ρ) c)

theorem V3_w1 (c : Dev nD) : V3 m ρ c main_arg4 = a4 m c := by
  show StableHlo.after hostOps1 (W2 m ρ c) (Proc.devRef .tc main_arg4) = _
  after_results
  exact W2_arg4 m ρ c

theorem V3_wl (c : Dev nD) : V3 m ρ c main_arg6 = a6 m c := by
  show StableHlo.after hostOps1 (W2 m ρ c) (Proc.devRef .tc main_arg6) = _
  after_results
  exact W2_arg6 m ρ c

theorem V3_b1 (c : Dev nD) (j : Fin 4096) : (V3 m ρ c main_v13 : S1x4096.Idx → EReal) (ix2 (0 : Fin 1) j) = a5 m c (ix1 j) := by
  have e : (V3 m ρ c main_v13 : S1x4096.Idx → EReal) = shapeCast S1x4096 (a5 m c) shapeCasts_S4096_S1x4096 := by
    show StableHlo.after hostOps1 (W2 m ρ c) (Proc.devRef .tc main_v13) = _
    after_results
    rw [W2_arg5]
    rfl
  rw [e]
  exact shapeCast_a_1a_apply _ _ _ j

theorem V3_bl (c : Dev nD) (n : Fin 110) : (V3 m ρ c main_v14 : S110x1.Idx → EReal) (ix2 n (0 : Fin 1)) = a7 m c (ix1 n) := by
  have e : (V3 m ρ c main_v14 : S110x1.Idx → EReal) = shapeCast S110x1 (a7 m c) shapeCasts_S110_S110x1 := by
    show StableHlo.after hostOps1 (W2 m ρ c) (Proc.devRef .tc main_v14) = _
    after_results
    rw [W2_arg7]
    rfl
  rw [e]
  exact Cert.LibUnitColumn.shapeCast_a_a1_apply _ _ n _

/-! ## The result array -/

/-- The result array after the run, as a function of the arguments and of the normalised adjacency. -/
abbrev result (c : Dev nD) : S110x4096.Idx → EReal := fun i =>
  outK (preK (hid (fun n k => a0 m c (ix2 n k)) (fun k j => a2 m c (ix2 k j)) (fun j => a3 m c (ix1 j)))
      (aggK (fun j i' => mnorm m ρ c (ix2 j i'))
        (hid (fun n k => a0 m c (ix2 n k)) (fun k j => a2 m c (ix2 k j)) (fun j => a3 m c (ix1 j))))
      (fun k j => a4 m c (ix2 k j)) (fun j => a5 m c (ix1 j)))
    (fun n k => a6 m c (ix2 n k)) (fun n => a7 m c (ix1 n)) (i 0) (i 1)

theorem value (c : Dev nD) : W4 m ρ c (Proc.devRef .tc main_v15) = result m ρ c := by
  refine ((W4_arr m ρ c 6).trans (Val1.final6 (V3 m ρ) c)).trans ?_
  funext i
  obtain ⟨n, q, rfl⟩ : ∃ (n : Fin 110) (q : Fin 4096), i = ix2 n q := ⟨i 0, i 1, eq_ix2 i⟩
  have eb1 : (fun j : Fin 4096 => (V3 m ρ c main_v13 : S1x4096.Idx → EReal) (ix2 (0 : Fin 1) j)) = fun j => a5 m c (ix1 j) :=
    funext fun j => V3_b1 m ρ c j
  have ebl : (fun n : Fin 110 => (V3 m ρ c main_v14 : S110x1.Idx → EReal) (ix2 n (0 : Fin 1))) = fun n => a7 m c (ix1 n) :=
    funext fun n => V3_bl m ρ c n
  show outK (preK (fun n k => (V3 m ρ c main_v12_0 : S110x4096.Idx → EReal) (ix2 n k))
        (fun n k => (V3 m ρ c main_v12_1 : S110x4096.Idx → EReal) (ix2 n k))
        (fun k j => (V3 m ρ c main_arg4 : S8192x4096.Idx → EReal) (ix2 k j))
        (fun j => (V3 m ρ c main_v13 : S1x4096.Idx → EReal) (ix2 (0 : Fin 1) j)))
      (fun n k => (V3 m ρ c main_arg6 : S110x110.Idx → EReal) (ix2 n k))
      (fun n => (V3 m ρ c main_v14 : S110x1.Idx → EReal) (ix2 n (0 : Fin 1))) n q = _
  rw [V3_h, V3_a, V3_w1, V3_wl, eb1, ebl]
  show outK (preK (Val0.hidV (V1 m ρ) c)
        (aggK (fun j i' => mnorm m ρ c (ix2 j i')) (Val0.hidV (V1 m ρ) c))
        (fun k j => a4 m c (ix2 k j)) (fun j => a5 m c (ix1 j)))
      (fun n k => a6 m c (ix2 n k)) (fun n => a7 m c (ix1 n)) n q = _
  rw [hid_eq]

/-- THE RUN, READ: every weakly fair execution ends with the result array at `result` and the arguments as launched. -/
theorem run : θ_run defs (onTc (τ := τ) (main (F := Ideal))) ⟨m, fun _ => 0, ρ⟩ (fun r => ∀ c : Dev nD,
      r.2.mem ((c.tc : Thread nD τ).loc main_v15) = result m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (value m ρ c), (h c).2⟩) (GenRun.run_valued m ρ)

/-! ## The normalised adjacency, as the host operations before the first kernel compute it -/

/-- The adjacency indicator, transposed: the operations' own term. -/
abbrev maskT (c : Dev nD) : S110x110.Idx → EReal :=
  transpose S110x110 [1, 0] (uitofp (F := Ideal) .f32 (cmpi .ne (m ((c : Thread nD τ).loc main_arg1))
    (broadcastInDim S110x110 ![] bcast_S_S110x110 (constantI S_ 32 0#32)))) transposes_S110x110_S110x110_1_0

/-- The clamped in-degree: the operations' own term. -/
abbrev degc (c : Dev nD) : S110.Idx → EReal :=
  maximumf (Host.reduceAdd (uitofp (F := Ideal) .f32 (cmpi .ne (m ((c : Thread nD τ).loc main_arg1))
      (broadcastInDim S110x110 ![] bcast_S_S110x110 (constantI S_ 32 0#32)))) (constant (F := Ideal) S_ .f32 0x00000000#32)
      reducesTo_S110x110_S110_d0 h_S_)
    (broadcastInDim S110 ![] bcast_S_S110 (constant (F := Ideal) S_ .f32 0x3F800000#32))

/-- Entry (j, i) of the normalised adjacency is the transposed indicator there over the clamped degree of row j. -/
theorem mnorm_apply (c : Dev nD) (j i : Fin 110) :
    mnorm m ρ c (ix2 j i) = Ideal.div (maskT m c (ix2 j i)) (degc m c (ix1 j)) := by
  have e : mnorm m ρ c = Host.divf (F := Ideal) (φ := .f32) (maskT m c)
      (broadcastInDim S110x110 ![0, 1] bcast_S110x1_S110x110_0_1 (broadcastInDim S110x1 ![0] bcast_S110_S110x1_0 (degc m c))) := by
    show StableHlo.after hostOps0 (W0 m ρ c) (Proc.devRef .tc main_v9) = _
    after_results
  rw [e]
  show Ideal.div (maskT m c (ix2 j i)) _ = _
  refine congrArg (Ideal.div _) ?_
  rw [Cert.LibUnitColumn.broadcastInDim_col_mat_apply (by decide), Cert.LibUnitColumn.broadcastInDim_vec_col_apply (by decide)]

end Cert.KernelIdeal.KVal

end
-- ==== Proof.lean ====
/-
  A graph layer: h = x · W₂ + b₂; ag = the adjacency-weighted mean of h over each node's sources (the sum divided by the
  in-degree clamped below by one); pre = [h | ag] · W₁ + b₁; out = Wl · max(pre, 0) + bl down the rows.

  The kernel program does it in two pallas_calls over column blocks — the first writes h and ag with the adjacency weights
  normalised BEFORE the aggregation, the second contracts h against the upper half of W₁ and ag against the lower half —
  and the reference in one chain of host operations that aggregates first and divides after, joins [h | ag] and contracts
  it against all of W₁, and mixes the nodes through two transposes. On the extended reals the narrowings to bf16 are the
  identity and a product into zeros is the contraction sum, so each program's result array is a function of the arguments
  built from plain sums (the kernel's: Proof/KernelValue.lean over Region0Value / Region1Value; the reference's:
  Proof/RefValue.lean), and the two functions are one (Proof/Spec.lean): multiplication by the non-negative real 1/d
  distributes over sums of extended reals, a sum over 8192 rows splits into its halves, products commute. The in-degree is a
  count of zeros and ones started at zero and clamped below by one, hence a positive real; nothing else is asked of the
  inputs, so the precondition is not opened.

  The three frames: the two kernel programs' are the generated ones; the reference's is its generated run with the result
  forgotten. The ideal pass rewrote nothing, so the idealization claim is the true proposition.
-/
import proofs.«164711_j38817914421721_2_alg».proof.Defs
import proofs.«164711_j38817914421721_2_alg».proof.Proof.Gen.Kernel
import proofs.«164711_j38817914421721_2_alg».proof.Proof.Gen.Kernel.Skeleton
import proofs.«164711_j38817914421721_2_alg».proof.Proof.Gen.Kernel.Launch
import proofs.«164711_j38817914421721_2_alg».proof.Proof.Gen.Kernel.Points
import proofs.«164711_j38817914421721_2_alg».proof.Proof.Gen.Kernel.Frame
import proofs.«164711_j38817914421721_2_alg».proof.Proof.Gen.KernelIdeal
import proofs.«164711_j38817914421721_2_alg».proof.Proof.Gen.KernelIdeal.Skeleton
import proofs.«164711_j38817914421721_2_alg».proof.Proof.Gen.KernelIdeal.Launch
import proofs.«164711_j38817914421721_2_alg».proof.Proof.Gen.KernelIdeal.Points
import proofs.«164711_j38817914421721_2_alg».proof.Proof.Gen.KernelIdeal.Frame
import proofs.«164711_j38817914421721_2_alg».proof.Proof.Gen.ReferenceIdeal
import proofs.«164711_j38817914421721_2_alg».proof.Proof.Gen.Pre_finite_inputs
import proofs.«164711_j38817914421721_2_alg».proof.Proof.Gen.ReferenceIdeal.Run
import proofs.«164711_j38817914421721_2_alg».proof.Proof.Gen.ReferenceIdeal.Read
import proofs.«164711_j38817914421721_2_alg».proof.Proof.Spec
import proofs.«164711_j38817914421721_2_alg».proof.Proof.RefValue
import proofs.«164711_j38817914421721_2_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ =>
    (θ_run Cert.ReferenceIdeal.defs _ _).mono (fun _ h c => (h c).2) (Cert.ReferenceIdeal.Value.run (F := Ideal) m ρ)

/-- From memories that agree on the arguments both programs end with the result array at one function of them: the kernel's
    order of operations and the reference's are joined by `Cert.Spec.layer_eq`, whose two hypotheses are that the first
    kernel's normalised adjacency is the transposed indicator over the clamped degree, entry by entry, and that the clamped
    degree is a positive real. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.KVal.result m ρ c, Cert.KernelIdeal.KVal.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v27_eq, Cert.ReferenceIdeal.RefValue.result_eq, h0, h1, h2, h3, h4, h5, h6, h7]
  funext i
  refine (congrFun (congrFun (Cert.Spec.layer_eq _ _ _ (fun j i' => Cert.KernelIdeal.KVal.mnorm m ρ c (ValueIdx.ix2 j i')) _ _ _ _ _ _
    (fun j i' => ?_) (fun j => Cert.ReferenceIdeal.RefValue.degc_pos _ j)) (i 0)) (i 1)).symm
  exact Cert.KernelIdeal.KVal.mnorm_apply m ρ c j i'

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
